-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S100000x3 : Shape := ⟨2, ![100000, 3]⟩
abbrev S100000x5x3 : Shape := ⟨3, ![100000, 5, 3]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x5 : Shape := ⟨2, ![128, 5]⟩
abbrev S5 : Shape := ⟨1, ![5]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S100000x3 : S_.BroadcastsInDim S100000x3 (![] : Fin 0 → Fin S100000x3.rank)
  reducesTo_S100000x3_S_d0_1 : S100000x3.ReducesTo [0, 1] S_
  bcast_S_S100000x5x3 : S_.BroadcastsInDim S100000x5x3 (![] : Fin 0 → Fin S100000x5x3.rank)
  reducesTo_S100000x5x3_S_d0_1_2 : S100000x5x3.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_arg12 : FVec F S5 .f32) (main_v48 : IVec S_ 1) (main_v49 : FVec F S128x5 .f32) (main_v50 : FVec F S128x5 .f32) : IVec S_ 1 :=
  let main_v51 : IVec S128x5 1 := cmpf .olt main_v49 main_v50
  let main_c_19 : IVec S_ 1 := constantI S_ 1 1#1
  let main_v52 : IVec S_ 1 := (fun x v => Host.reduce IntOp.andi x v reducesTo_S128x5_S_d0_1 h_S_) main_v51 main_c_19
  let main_v53 : IVec S_ 1 := andi main_v48 main_v52
  let main_v54 : FVec F S5 .f32 := Host.absf main_arg12
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  main_v58

def fn_part2 {F : FTy → Type} [FloatOps F] (main_arg8 : FVec F S1 .f32) (main_arg9 : FVec F S128x128 .f32) (main_arg10 : FVec F S128 .f32) (main_arg11 : FVec F S128x5 .f32) (main_arg12 : FVec F S5 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x5 .f32 := Host.absf main_arg11
  let main_cst_18 : FVec F S_ .f32 := constant S_ .f32 0x7F800000#32
  let main_v50 : FVec F S128x5 .f32 := broadcastInDim S128x5 ![] bcast_S_S128x5 main_cst_18
  fn_part3 (F := F) main_arg12 main_v48 main_v49 main_v50

def fn_part1 {F : FTy → Type} [FloatOps F] (main_arg5 : FVec F S128x128 .f32) (main_arg6 : FVec F S128 .f32) (main_arg7 : FVec F S128x1 .f32) (main_arg8 : FVec F S1 .f32) (main_arg9 : FVec F S128x128 .f32) (main_arg10 : FVec F S128 .f32) (main_arg11 : FVec F S128x5 .f32) (main_arg12 : FVec F S5 .f32) (main_v13 : IVec S_ 1) (main_v16 : IVec S100000x5x3 1) : IVec S_ 1 :=
  let main_c_5 : IVec S_ 1 := constantI S_ 1 1#1
  let main_v17 : IVec S_ 1 := (fun x v => Host.reduce IntOp.andi x v reducesTo_S100000x5x3_S_d0_1_2 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : FVec F S1600000x128 .f32) (main_arg2 : FVec F S100000x3 .f32) (main_arg3 : FVec F S100000x5x3 .f32) (main_arg4 : IVec S2x1600000 32) (main_arg5 : FVec F S128x128 .f32) (main_arg6 : FVec F S128 .f32) (main_arg7 : FVec F S128x1 .f32) (main_arg8 : FVec F S1 .f32) (main_arg9 : FVec F S128x128 .f32) (main_arg10 : FVec F S128 .f32) (main_arg11 : FVec F S128x5 .f32) (main_arg12 : FVec F S5 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S100000x5x3 .f32 := Host.absf main_arg3
  let main_cst_4 : FVec F S_ .f32 := constant S_ .f32 0x7F800000#32
  let main_v15 : FVec F S100000x5x3 .f32 := broadcastInDim S100000x5x3 ![] bcast_S_S100000x5x3 main_cst_4
  let main_v16 : IVec S100000x5x3 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S1600000x128 : Shape := ⟨2, ![1600000, 128]⟩
abbrev S100000x3 : Shape := ⟨2, ![100000, 3]⟩
abbrev S100000x5x3 : Shape := ⟨3, ![100000, 5, 3]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x5 : Shape := ⟨2, ![128, 5]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S6400x128 : Shape := ⟨2, ![6400, 128]⟩
abbrev S6400x3 : Shape := ⟨2, ![6400, 3]⟩
abbrev S1x128 : Shape := ⟨2, ![1, 128]⟩
abbrev S6400x1 : Shape := ⟨2, ![6400, 1]⟩
abbrev S1x1 : Shape := ⟨2, ![1, 1]⟩
abbrev S100000 : Shape := ⟨1, ![100000]⟩
abbrev S100000x1 : Shape := ⟨2, ![100000, 1]⟩
abbrev S5000x128 : Shape := ⟨2, ![5000, 128]⟩
abbrev S5000x5x3 : Shape := ⟨3, ![5000, 5, 3]⟩
abbrev S5000x3 : Shape := ⟨2, ![5000, 3]⟩
abbrev S5000x5 : Shape := ⟨2, ![5000, 5]⟩
abbrev S1x5 : Shape := ⟨2, ![1, 5]⟩
abbrev S5000x1 : Shape := ⟨2, ![5000, 1]⟩
abbrev S5000x1x3 : Shape := ⟨3, ![5000, 1, 3]⟩

abbrev nBuf : Space → Nat
  | .hbm => 55
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S100000x3, .f32⟩
  | .hbm, ⟨3, _⟩ => ⟨S100000x5x3, .f32⟩
  | .hbm, ⟨4, _⟩ => ⟨S2x1600000, .i32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x128, .f32⟩
  | .hbm, ⟨10, _⟩ => ⟨S128, .f32⟩
  | .hbm, ⟨11, _⟩ => ⟨S128x5, .f32⟩
  | .hbm, ⟨12, _⟩ => ⟨S5, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x3, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x3, .f32⟩
  | .hbm, ⟨35, _⟩ => ⟨S1600000x3, .f32⟩
  | .hbm, ⟨36, _⟩ => ⟨S1600000x3, .f32⟩
  | .hbm, ⟨37, _⟩ => ⟨S_, .f32⟩
  | .hbm, ⟨38, _⟩ => ⟨S100000x3, .f32⟩
  | .hbm, ⟨39, _⟩ => ⟨S1600000x1, .i32⟩
  | .hbm, ⟨40, _⟩ => ⟨S100000x3, .f32⟩
  | .hbm, ⟨41, _⟩ => ⟨S_, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S1600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x3, .f32⟩
  | .hbm, ⟨52, _⟩ => ⟨S100000x3, .f32⟩
  | .hbm, ⟨53, _⟩ => ⟨S100000x3, .f32⟩
  | .hbm, ⟨54, _⟩ => ⟨S100000x3, .f32⟩
  | .local _ .vmem, ⟨0, _⟩ => ⟨S6400x128, .f32⟩
  | .local _ .vmem, ⟨1, _⟩ => ⟨S6400x128, .f32⟩
  | .local _ .vmem, ⟨2, _⟩ => ⟨S6400x3, .f32⟩
  | .local _ .vmem, ⟨3, _⟩ => ⟨S6400x3, .f32⟩
  | .local _ .vmem, ⟨4, _⟩ => ⟨S128x128, .f32⟩
  | .local _ .vmem, ⟨5, _⟩ => ⟨S128, .f32⟩
  | .local _ .vmem, ⟨6, _⟩ => ⟨S128x1, .f32⟩
  | .local _ .vmem, ⟨7, _⟩ => ⟨S1, .f32⟩
  | .local _ .vmem, ⟨8, _⟩ => ⟨S6400x3, .f32⟩
  | .local _ .vmem, ⟨9, _⟩ => ⟨S6400x3, .f32⟩
  | .local _ .vmem, ⟨10, _⟩ => ⟨S5000x128, .f32⟩
  | .local _ .vmem, ⟨11, _⟩ => ⟨S5000x128, .f32⟩
  | .local _ .vmem, ⟨12, _⟩ => ⟨S5000x5x3, .f32⟩
  | .local _ .vmem, ⟨13, _⟩ => ⟨S5000x5x3, .f32⟩
  | .local _ .vmem, ⟨14, _⟩ => ⟨S128x128, .f32⟩
  | .local _ .vmem, ⟨15, _⟩ => ⟨S128, .f32⟩
  | .local _ .vmem, ⟨16, _⟩ => ⟨S128x5, .f32⟩
  | .local _ .vmem, ⟨17, _⟩ => ⟨S5, .f32⟩
  | .local _ .vmem, ⟨18, _⟩ => ⟨S5000x3, .f32⟩
  | .local _ .vmem, ⟨19, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x5x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S6400x1 : S1x1.Broadcasts S6400x1
  inb_S6400x3_S6400x3_0_0 : ∀ a, (![0, 0] : Fin 2 → Nat) a + S6400x3.size a ≤ S6400x3.size a
  h_S6400x3 : 0 < S6400x3.numel
  shapeCasts_S6400x3_S6400x3 : S6400x3.ShapeCasts S6400x3
  broadcasts_S6400x1_S6400x3 : S6400x1.Broadcasts S6400x3
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  inb_S128x5_S128x5_0_0 : ∀ a, (![0, 0] : Fin 2 → Nat) a + S128x5.size a ≤ S128x5.size a
  h_S128x5 : 0 < S128x5.numel
  inb_S5_S5_0 : ∀ a, (![0] : Fin 1 → Nat) a + S5.size a ≤ S5.size a
  h_S5 : 0 < S5.numel
  shapeCasts_S5_S1x5 : S5.ShapeCasts S1x5
  broadcasts_S1x5_S5000x5 : S1x5.Broadcasts S5000x5
  inb_S5000x5x3_S5000x5x3_0_0_0 : ∀ a, (![0, 0, 0] : Fin 3 → Nat) a + S5000x5x3.size a ≤ S5000x5x3.size a
  h_S5000x5x3 : 0 < S5000x5x3.numel
  slices_S5000x5_o0_0_S5000x1 : S5000x5.Slices ![0, 0] S5000x1
  slices_S5000x5x3_o0_0_0_S5000x1x3 : S5000x5x3.Slices ![0, 0, 0] S5000x1x3
  shapeCasts_S5000x1x3_S5000x3 : S5000x1x3.ShapeCasts S5000x3
  broadcasts_S5000x1_S5000x3 : S5000x1.Broadcasts S5000x3
  slices_S5000x5_o0_1_S5000x1 : S5000x5.Slices ![0, 1] S5000x1
  slices_S5000x5x3_o0_1_0_S5000x1x3 : S5000x5x3.Slices ![0, 1, 0] S5000x1x3
  slices_S5000x5_o0_2_S5000x1 : S5000x5.Slices ![0, 2] S5000x1
  slices_S5000x5x3_o0_2_0_S5000x1x3 : S5000x5x3.Slices ![0, 2, 0] S5000x1x3
  slices_S5000x5_o0_3_S5000x1 : S5000x5.Slices ![0, 3] S5000x1
  slices_S5000x5x3_o0_3_0_S5000x1x3 : S5000x5x3.Slices ![0, 3, 0] S5000x1x3
  slices_S5000x5_o0_4_S5000x1 : S5000x5.Slices ![0, 4] S5000x1
  slices_S5000x5x3_o0_4_0_S5000x1x3 : S5000x5x3.Slices ![0, 4, 0] S5000x1x3
  inb_S5000x3_S5000x3_0_0 : ∀ a, (![0, 0] : Fin 2 → Nat) a + S5000x3.size a ≤ S5000x3.size a
  h_S5000x3 : 0 < S5000x3.numel
  gather_S100000x3_S1600000x1_S1600000x3_1_0_n_n_0_1_13_wf : GatherDims.WF S100000x3 S1600000x1 S1600000x3 [1] [0] [] [0] [] 1 ![1, 3]
  dot_S6400x128_S128x128_S6400x128_1_0_0_1_n_n_wf : DotDims.WF S6400x128 S128x128 S6400x128 [1] [0] [0] [1] [] []
  dot_S6400x128_S128x1_S6400x1_1_0_0_1_n_n_wf : DotDims.WF S6400x128 S128x1 S6400x1 [1] [0] [0] [1] [] []
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x5_S5000x5_1_0_0_1_n_n_wf : DotDims.WF S5000x128 S128x5 S5000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x3.size a ≤ S1600000x3.size a
  hwx0_1 : ∀ i : grid0.Coords, EltTy.bits .f32 = 32 ∨ (Rect.block (s := S1600000x3) S6400x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x3.size a ≤ S1600000x3.size a
  hwx0_6 : ∀ i : grid0.Coords, EltTy.bits .f32 = 32 ∨ (Rect.block (s := S1600000x3) S6400x3.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x5x3.size a ≤ S100000x5x3.size a
  hwx1_1 : ∀ i : grid1.Coords, EltTy.bits .f32 = 32 ∨ (Rect.block (s := S100000x5x3) S5000x5x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x5.size a ≤ S128x5.size a
  hwx1_4 : ∀ i : grid1.Coords, EltTy.bits .f32 = 32 ∨ (Rect.block (s := S128x5) S128x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5.size a ≤ S5.size a
  hwx1_5 : ∀ i : grid1.Coords, EltTy.bits .f32 = 32 ∨ (Rect.block (s := S5) S5.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x3.size a ≤ S100000x3.size a
  hwx1_6 : ∀ i : grid1.Coords, EltTy.bits .f32 = 32 ∨ (Rect.block (s := S100000x3) S5000x3.size (cc1_transform_6 i) (hinb1_6 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x5_S5000x5_1_0_0_1_n_n : DotDims S5000x128 S128x5 S5000x5 where
  lhsContracting := [1]
  rhsContracting := [0]
  lhsNonContracting := [0]
  rhsNonContracting := [1]
  lhsBatch := []
  rhsBatch := []
  wf := dot_S5000x128_S128x5_S5000x5_1_0_0_1_n_n_wf

abbrev win0_0 : Pipeline.Window sig grid0 :=
  Pipeline.Window.ofSpec (Memref.whole main_arg1) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S6400x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x5x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S5.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x3.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S100000x3 : Shape := ⟨2, ![100000, 3]⟩
abbrev S100000x5x3 : Shape := ⟨3, ![100000, 5, 3]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x5 : Shape := ⟨2, ![128, 5]⟩
abbrev S5 : Shape := ⟨1, ![5]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1x128 : Shape := ⟨2, ![1, 128]⟩
abbrev S1x1 : Shape := ⟨2, ![1, 1]⟩
abbrev S100000 : Shape := ⟨1, ![100000]⟩
abbrev S100000x1 : Shape := ⟨2, ![100000, 1]⟩
abbrev S100000x5 : Shape := ⟨2, ![100000, 5]⟩
abbrev S1x5 : Shape := ⟨2, ![1, 5]⟩
abbrev S100000x5x1 : Shape := ⟨3, ![100000, 5, 1]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S100000x3, .f32⟩
  | .hbm, ⟨3, _⟩ => ⟨S100000x5x3, .f32⟩
  | .hbm, ⟨4, _⟩ => ⟨S2x1600000, .i32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S128x128, .f32⟩
  | .hbm, ⟨10, _⟩ => ⟨S128, .f32⟩
  | .hbm, ⟨11, _⟩ => ⟨S128x5, .f32⟩
  | .hbm, ⟨12, _⟩ => ⟨S5, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x3, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x3, .f32⟩
  | .hbm, ⟨35, _⟩ => ⟨S1600000x3, .f32⟩
  | .hbm, ⟨36, _⟩ => ⟨S1600000x128, .f32⟩
  | .hbm, ⟨37, _⟩ => ⟨S1x128, .f32⟩
  | .hbm, ⟨38, _⟩ => ⟨S1600000x128, .f32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S1600000x128, .f32⟩
  | .hbm, ⟨47, _⟩ => ⟨S1600000x128, .f32⟩
  | .hbm, ⟨48, _⟩ => ⟨S1600000x128, .f32⟩
  | .hbm, ⟨49, _⟩ => ⟨S1600000x1, .f32⟩
  | .hbm, ⟨50, _⟩ => ⟨S1x1, .f32⟩
  | .hbm, ⟨51, _⟩ => ⟨S1600000x1, .f32⟩
  | .hbm, ⟨52, _⟩ => ⟨S1600000x1, .f32⟩
  | .hbm, ⟨53, _⟩ => ⟨S1600000x3, .f32⟩
  | .hbm, ⟨54, _⟩ => ⟨S1600000x3, .f32⟩
  | .hbm, ⟨55, _⟩ => ⟨S_, .f32⟩
  | .hbm, ⟨56, _⟩ => ⟨S100000x3, .f32⟩
  | .hbm, ⟨57, _⟩ => ⟨S1600000x1, .i32⟩
  | .hbm, ⟨58, _⟩ => ⟨S100000x3, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x3, .f32⟩
  | .hbm, ⟨70, _⟩ => ⟨S100000x3, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x5, .f32⟩
  | .hbm, ⟨85, _⟩ => ⟨S1x5, .f32⟩
  | .hbm, ⟨86, _⟩ => ⟨S100000x5, .f32⟩
  | .hbm, ⟨87, _⟩ => ⟨S100000x5, .f32⟩
  | .hbm, ⟨88, _⟩ => ⟨S100000x5x1, .f32⟩
  | .hbm, ⟨89, _⟩ => ⟨S100000x5x3, .f32⟩
  | .hbm, ⟨90, _⟩ => ⟨S100000x5x3, .f32⟩
  | .hbm, ⟨91, _⟩ => ⟨S_, .f32⟩
  | .hbm, ⟨92, _⟩ => ⟨S100000x3, .f32⟩
  | .hbm, ⟨93, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_6 : Ref sig .tc := ⟨.hbm, 91, rfl⟩
abbrev main_v54 : Ref sig .tc := ⟨.hbm, 92, rfl⟩
abbrev main_v55 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S100000x5_S100000x5x1_0_1 : S100000x5.BroadcastsInDim S100000x5x1 (![0, 1] : Fin 2 → Fin S100000x5x1.rank)
  bcast_S100000x5x1_S100000x5x3_0_1_2 : S100000x5x1.BroadcastsInDim S100000x5x3 (![0, 1, 2] : Fin 3 → Fin S100000x5x3.rank)
  reducesTo_S100000x5x3_S100000x3_d1 : S100000x5x3.ReducesTo [1] S100000x3
  h_S_ : 0 < S_.numel
  gather_S100000x3_S1600000x1_S1600000x3_1_0_n_n_0_1_13_wf : GatherDims.WF S100000x3 S1600000x1 S1600000x3 [1] [0] [] [0] [] 1 ![1, 3]
  dot_S1600000x128_S128x128_S1600000x128_1_0_0_1_n_n_wf : DotDims.WF S1600000x128 S128x128 S1600000x128 [1] [0] [0] [1] [] []
  dot_S1600000x128_S128x1_S1600000x1_1_0_0_1_n_n_wf : DotDims.WF S1600000x128 S128x1 S1600000x1 [1] [0] [0] [1] [] []
  scatter_S100000x3_S1600000x1_S1600000x3_1_0_0_1_wf : ScatterDims.WF S100000x3 S1600000x1 S1600000x3 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x5_S100000x5_1_0_0_1_n_n_wf : DotDims.WF S100000x128 S128x5 S100000x5 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf

class Facts : Prop extends Facts₀ where

variable [Facts]
-- ==== Proof.Tail.lean ====
/-
  The last stretch both programs share: the edge messages are summed per destination node, divided by the node's
  edge count (at least one), and added to the gated velocities. Here it is one function of the edge index table, the
  messages and the gated velocities; the reference's result is this function of its own messages and gated velocities.
-/
import proofs.«142540_j18580028522964_1_alg».proof.Proof.Gen.ReferenceIdeal.Read

noncomputable section

namespace Cert.ReferenceIdeal.RefValue

open Cert.ReferenceIdeal Idealize.ShloMosaic Idealize.ShloMosaic.TcCoe Idealize.SL.Sem

variable {F : FTy → Type} [FloatOps F]

/-- The per-node mean of the messages over the incoming edges (the count clamped below by one). -/
def nodeMean (x4 : (⟨S2x1600000, .i32⟩ : BufTy).Contents (Elt F)) (msgv : (⟨S1600000x3, .f32⟩ : BufTy).Contents (Elt F)) :
    (⟨S100000x3, .f32⟩ : BufTy).Contents (Elt F) :=
  Host.divf (Host.scatterAdd scatter_S100000x3_S1600000x1_S1600000x3_1_0_0_1 (Read.val_main_v30 (F := F)) (Read.val_main_v31 (F := F) x4) msgv)
    (Read.val_main_v40 (F := F) x4)

/-- The result: the gated velocities plus the per-node mean of the messages. -/
def tail (x4 : (⟨S2x1600000, .i32⟩ : BufTy).Contents (Elt F)) (msgv : (⟨S1600000x3, .f32⟩ : BufTy).Contents (Elt F))
    (combov : (⟨S100000x3, .f32⟩ : BufTy).Contents (Elt F)) : (⟨S100000x3, .f32⟩ : BufTy).Contents (Elt F) :=
  addf combov (nodeMean x4 msgv)

/-- The reference's result is the shared last stretch applied to its messages and its gated velocities. -/
theorem val_main_v55_tail (x0 : (⟨S100000x128, .f32⟩ : BufTy).Contents (Elt F)) (x1 : (⟨S1600000x128, .f32⟩ : BufTy).Contents (Elt F))
    (x2 : (⟨S100000x3, .f32⟩ : BufTy).Contents (Elt F)) (x3 : (⟨S100000x5x3, .f32⟩ : BufTy).Contents (Elt F))
    (x4 : (⟨S2x1600000, .i32⟩ : BufTy).Contents (Elt F)) (x5 : (⟨S128x128, .f32⟩ : BufTy).Contents (Elt F))
    (x6 : (⟨S128, .f32⟩ : BufTy).Contents (Elt F)) (x7 : (⟨S128x1, .f32⟩ : BufTy).Contents (Elt F))
    (x8 : (⟨S1, .f32⟩ : BufTy).Contents (Elt F)) (x9 : (⟨S128x128, .f32⟩ : BufTy).Contents (Elt F))
    (x10 : (⟨S128, .f32⟩ : BufTy).Contents (Elt F)) (x11 : (⟨S128x5, .f32⟩ : BufTy).Contents (Elt F))
    (x12 : (⟨S5, .f32⟩ : BufTy).Contents (Elt F)) :
    Read.val_main_v55 (F := F) x0 x1 x2 x3 x4 x5 x6 x7 x8 x9 x10 x11 x12
      = tail x4 (Read.val_main_v29 (F := F) x1 x2 x4 x5 x6 x7 x8) (Read.val_main_v54 (F := F) x0 x3 x9 x10 x11 x12) := by
  unfold Read.val_main_v55 Read.val_main_v41 Read.val_main_v32 tail nodeMean
  rfl

end Cert.ReferenceIdeal.RefValue
-- ==== Proof.KernelTail.lean ====
/-
  What the kernel program's result array holds after the run, as the shared last stretch applied to the two kernels'
  output arrays.

  The program is: host operations (the two endpoint gathers of the positions and their difference rel), the edge
  kernel, host operations (sum of the messages per destination node, the per-node count clamped below by one, the
  quotient), the gate kernel, and one last addition. Reading the result buffer back through these stretches: it is the
  gate kernel's output array plus the per-node mean of the edge kernel's output array; the edge kernel finds rel and
  the edge features and weights as launched, the gate kernel finds the node features, velocities and weights as
  launched, because no stretch writes an argument.
-/
import proofs.«142540_j18580028522964_1_alg».proof.Proof.Gen.KernelIdeal.Frame
import proofs.«142540_j18580028522964_1_alg».proof.Proof.Tail

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F]

/-! ## Each host stretch, from any contents X of the buffers it starts from -/

/-- The last stretch is one addition. -/
theorem stretch2 (X : Valuation τ sig (Elt F)) :
    StableHlo.after (hostOps2 (F := F)) X (Proc.devRef .tc main_v33)
      = addf (X (Proc.devRef .tc main_v32) : (⟨S100000x3, .f32⟩ : BufTy).Contents (Elt F)) (X (Proc.devRef .tc main_v31)) := by
  after_results

/-- The first stretch leaves the destination node of every edge: row 1 of the edge index table. -/
theorem stretch0_v3 (X : Valuation τ sig (Elt F)) :
    StableHlo.after (hostOps0 (F := F)) X (Proc.devRef .tc main_v3)
      = Cert.ReferenceIdeal.Read.val_main_v3 (F := F) (X (Proc.devRef .tc main_arg4)) := by
  after_results
  rfl

set_option maxHeartbeats 4000000 in
/-- The first stretch leaves rel: the source position minus the destination position of every edge. -/
theorem stretch0_v18 (X : Valuation τ sig (Elt F)) :
    StableHlo.after (hostOps0 (F := F)) X (Proc.devRef .tc main_v18)
      = Cert.ReferenceIdeal.Read.val_main_v18 (F := F) (X (Proc.devRef .tc main_arg2)) (X (Proc.devRef .tc main_arg4)) := by
  after_results_simp
  rfl

/-- The middle stretch leaves the per-node mean of whatever messages it finds. -/
theorem stretch1 (X : Valuation τ sig (Elt F)) (x4 : (⟨S2x1600000, .i32⟩ : BufTy).Contents (Elt F))
    (h3 : X (Proc.devRef .tc main_v3) = Cert.ReferenceIdeal.Read.val_main_v3 (F := F) x4) :
    StableHlo.after (hostOps1 (F := F)) X (Proc.devRef .tc main_v31)
      = Cert.ReferenceIdeal.RefValue.nodeMean x4 (X (Proc.devRef .tc main_v19)) := by
  after_results
  rw [h3]
  rfl

/-! ## No stretch writes an argument -/

theorem keep0_arg0 (X : Valuation τ sig (Elt F)) :
    StableHlo.after (hostOps0 (F := F)) X (Proc.devRef .tc main_arg0) = X (Proc.devRef .tc main_arg0) := by
  after_results_simp
theorem keep0_arg1 (X : Valuation τ sig (Elt F)) :
    StableHlo.after (hostOps0 (F := F)) X (Proc.devRef .tc main_arg1) = X (Proc.devRef .tc main_arg1) := by
  after_results_simp
theorem keep0_arg3 (X : Valuation τ sig (Elt F)) :
    StableHlo.after (hostOps0 (F := F)) X (Proc.devRef .tc main_arg3) = X (Proc.devRef .tc main_arg3) := by
  after_results_simp
theorem keep0_arg5 (X : Valuation τ sig (Elt F)) :
    StableHlo.after (hostOps0 (F := F)) X (Proc.devRef .tc main_arg5) = X (Proc.devRef .tc main_arg5) := by
  after_results_simp
theorem keep0_arg6 (X : Valuation τ sig (Elt F)) :
    StableHlo.after (hostOps0 (F := F)) X (Proc.devRef .tc main_arg6) = X (Proc.devRef .tc main_arg6) := by
  after_results_simp
theorem keep0_arg7 (X : Valuation τ sig (Elt F)) :
    StableHlo.after (hostOps0 (F := F)) X (Proc.devRef .tc main_arg7) = X (Proc.devRef .tc main_arg7) := by
  after_results_simp
theorem keep0_arg8 (X : Valuation τ sig (Elt F)) :
    StableHlo.after (hostOps0 (F := F)) X (Proc.devRef .tc main_arg8) = X (Proc.devRef .tc main_arg8) := by
  after_results_simp
theorem keep0_arg9 (X : Valuation τ sig (Elt F)) :
    StableHlo.after (hostOps0 (F := F)) X (Proc.devRef .tc main_arg9) = X (Proc.devRef .tc main_arg9) := by
  after_results_simp
theorem keep0_arg10 (X : Valuation τ sig (Elt F)) :
    StableHlo.after (hostOps0 (F := F)) X (Proc.devRef .tc main_arg10) = X (Proc.devRef .tc main_arg10) := by
  after_results_simp
theorem keep0_arg11 (X : Valuation τ sig (Elt F)) :
    StableHlo.after (hostOps0 (F := F)) X (Proc.devRef .tc main_arg11) = X (Proc.devRef .tc main_arg11) := by
  after_results_simp
theorem keep0_arg12 (X : Valuation τ sig (Elt F)) :
    StableHlo.after (hostOps0 (F := F)) X (Proc.devRef .tc main_arg12) = X (Proc.devRef .tc main_arg12) := by
  after_results_simp
theorem keep1_arg0 (X : Valuation τ sig (Elt F)) :
    StableHlo.after (hostOps1 (F := F)) X (Proc.devRef .tc main_arg0) = X (Proc.devRef .tc main_arg0) := by
  after_results_simp
theorem keep1_arg3 (X : Valuation τ sig (Elt F)) :
    StableHlo.after (hostOps1 (F := F)) X (Proc.devRef .tc main_arg3) = X (Proc.devRef .tc main_arg3) := by
  after_results_simp
theorem keep1_arg9 (X : Valuation τ sig (Elt F)) :
    StableHlo.after (hostOps1 (F := F)) X (Proc.devRef .tc main_arg9) = X (Proc.devRef .tc main_arg9) := by
  after_results_simp
theorem keep1_arg10 (X : Valuation τ sig (Elt F)) :
    StableHlo.after (hostOps1 (F := F)) X (Proc.devRef .tc main_arg10) = X (Proc.devRef .tc main_arg10) := by
  after_results_simp
theorem keep1_arg11 (X : Valuation τ sig (Elt F)) :
    StableHlo.after (hostOps1 (F := F)) X (Proc.devRef .tc main_arg11) = X (Proc.devRef .tc main_arg11) := by
  after_results_simp
theorem keep1_arg12 (X : Valuation τ sig (Elt F)) :
    StableHlo.after (hostOps1 (F := F)) X (Proc.devRef .tc main_arg12) = X (Proc.devRef .tc main_arg12) := by
  after_results_simp

/-! ## The run's boundary contents, read -/

variable (m : (ℓ : Loc nD τ sig) → Buf (Elt F) ℓ) (ρ : Dev nD → PrngReg)

/-- The edge kernel finds rel in its second operand. -/
theorem V1_v18 (c : Dev nD) : V1 m ρ c main_v18
    = Cert.ReferenceIdeal.Read.val_main_v18 (F := F) (m ((c : Thread nD τ).loc main_arg2)) (m ((c : Thread nD τ).loc main_arg4)) :=
  stretch0_v18 (W0 m ρ c)
theorem V1_arg1 (c : Dev nD) : V1 m ρ c main_arg1 = m ((c : Thread nD τ).loc main_arg1) :=
  keep0_arg1 (W0 m ρ c)
theorem V1_arg5 (c : Dev nD) : V1 m ρ c main_arg5 = m ((c : Thread nD τ).loc main_arg5) :=
  keep0_arg5 (W0 m ρ c)
theorem V1_arg6 (c : Dev nD) : V1 m ρ c main_arg6 = m ((c : Thread nD τ).loc main_arg6) :=
  keep0_arg6 (W0 m ρ c)
theorem V1_arg7 (c : Dev nD) : V1 m ρ c main_arg7 = m ((c : Thread nD τ).loc main_arg7) :=
  keep0_arg7 (W0 m ρ c)
theorem V1_arg8 (c : Dev nD) : V1 m ρ c main_arg8 = m ((c : Thread nD τ).loc main_arg8) :=
  keep0_arg8 (W0 m ρ c)
theorem V3_arg0 (c : Dev nD) : V3 m ρ c main_arg0 = m ((c : Thread nD τ).loc main_arg0) :=
  (keep1_arg0 (W2 m ρ c)).trans ((W2_of_ne m ρ c main_arg0 (by decide)).trans (keep0_arg0 (W0 m ρ c)))
theorem V3_arg3 (c : Dev nD) : V3 m ρ c main_arg3 = m ((c : Thread nD τ).loc main_arg3) :=
  (keep1_arg3 (W2 m ρ c)).trans ((W2_of_ne m ρ c main_arg3 (by decide)).trans (keep0_arg3 (W0 m ρ c)))
theorem V3_arg9 (c : Dev nD) : V3 m ρ c main_arg9 = m ((c : Thread nD τ).loc main_arg9) :=
  (keep1_arg9 (W2 m ρ c)).trans ((W2_of_ne m ρ c main_arg9 (by decide)).trans (keep0_arg9 (W0 m ρ c)))
theorem V3_arg10 (c : Dev nD) : V3 m ρ c main_arg10 = m ((c : Thread nD τ).loc main_arg10) :=
  (keep1_arg10 (W2 m ρ c)).trans ((W2_of_ne m ρ c main_arg10 (by decide)).trans (keep0_arg10 (W0 m ρ c)))
theorem V3_arg11 (c : Dev nD) : V3 m ρ c main_arg11 = m ((c : Thread nD τ).loc main_arg11) :=
  (keep1_arg11 (W2 m ρ c)).trans ((W2_of_ne m ρ c main_arg11 (by decide)).trans (keep0_arg11 (W0 m ρ c)))
theorem V3_arg12 (c : Dev nD) : V3 m ρ c main_arg12 = m ((c : Thread nD τ).loc main_arg12) :=
  (keep1_arg12 (W2 m ρ c)).trans ((W2_of_ne m ρ c main_arg12 (by decide)).trans (keep0_arg12 (W0 m ρ c)))

/-- The result array after the run: the gate kernel's output array plus the per-node mean of the edge kernel's. -/
theorem W5_result (c : Dev nD) :
    W5 m ρ c (Proc.devRef .tc main_v33)
      = Cert.ReferenceIdeal.RefValue.tail (m ((c : Thread nD τ).loc main_arg4))
          ((dat0 (V1 m ρ) c).arrAt 6 cfg0.N) ((dat1 (V3 m ρ) c).arrAt 6 cfg1.N) := by
  have e32 : W4 m ρ c (Proc.devRef .tc main_v32) = (dat1 (V3 m ρ) c).arrAt 6 cfg1.N := W4_arr m ρ c 6
  have e31 : W4 m ρ c (Proc.devRef .tc main_v31) = W3 m ρ c (Proc.devRef .tc main_v31) := W4_of_ne m ρ c main_v31 (by decide)
  have e3 : W2 m ρ c (Proc.devRef .tc main_v3)
      = Cert.ReferenceIdeal.Read.val_main_v3 (F := F) (m ((c : Thread nD τ).loc main_arg4)) :=
    (W2_of_ne m ρ c main_v3 (by decide)).trans (stretch0_v3 (W0 m ρ c))
  have e19 : W2 m ρ c (Proc.devRef .tc main_v19) = (dat0 (V1 m ρ) c).arrAt 6 cfg0.N := W2_arr m ρ c 6
  have e31' : W3 m ρ c (Proc.devRef .tc main_v31)
      = Cert.ReferenceIdeal.RefValue.nodeMean (m ((c : Thread nD τ).loc main_arg4)) (W2 m ρ c (Proc.devRef .tc main_v19)) :=
    stretch1 (W2 m ρ c) _ e3
  refine (stretch2 (W4 m ρ c)).trans ?_
  rw [e32, e31, e31', e19]
  rfl

end Cert.KernelIdeal.KValue
-- ==== Proof.Spec.lean ====
/-
  The mathematics both programs compute, written once over the extended reals.

  A row x of 128 features goes through a two-layer perceptron: hidden unit k is
  silu (∑ i, x i · W1 (i, k) + b1 k), with silu z = z · σ(z), σ the logistic function, and output c is
  ∑ k, hidden k · W2 (k, c) + b2 c.

  The edge message of edge e, component q, is rel (e, q) times the single output of the edge perceptron on row e of
  the edge features. The gated velocity of node n, component q, is the sum over the five velocity channels k of
  (output k of the gate perceptron on row n of the node features) · vel (n, k, q), added channel by channel from
  channel 0 up.
-/
import Idealize.ShloMosaic.Lib.ValueIdx
import Idealize.ShloMosaic.PureOps.Ideal.Laws

noncomputable section

open scoped BigOperators

namespace Cert.Spec

open Idealize.ShloMosaic Idealize.ShloMosaic.ValueIdx

/-- silu z = z · σ(z). -/
def silu (z : EReal) : EReal := z * Ideal.logistic z

/-- Hidden unit k of the perceptron on the row x. -/
def hidden (W1 : FVec Ideal ⟨2, ![128, 128]⟩ .f32) (b1 : FVec Ideal ⟨1, ![128]⟩ .f32) (x : Fin 128 → EReal) (k : Fin 128) : EReal :=
  silu ((∑ i : Fin 128, x i * W1 (ix2 i k)) + b1 (ix1 k))

/-- Output c of the perceptron on the row x. -/
def mlp {C : ℕ} (W1 : FVec Ideal ⟨2, ![128, 128]⟩ .f32) (b1 : FVec Ideal ⟨1, ![128]⟩ .f32)
    (W2 : FVec Ideal ⟨2, ![128, C]⟩ .f32) (b2 : FVec Ideal ⟨1, ![C]⟩ .f32) (x : Fin 128 → EReal) (c : Fin C) : EReal :=
  (∑ k : Fin 128, hidden W1 b1 x k * W2 (ix2 k c)) + b2 (ix1 c)

/-- The edge messages over E edges: entry (e, q) is rel (e, q) times the edge weight of edge e. -/
def msg {E : ℕ} (rel : FVec Ideal ⟨2, ![E, 3]⟩ .f32) (M : FVec Ideal ⟨2, ![E, 128]⟩ .f32)
    (W1 : FVec Ideal ⟨2, ![128, 128]⟩ .f32) (b1 : FVec Ideal ⟨1, ![128]⟩ .f32)
    (W2 : FVec Ideal ⟨2, ![128, 1]⟩ .f32) (b2 : FVec Ideal ⟨1, ![1]⟩ .f32) : FVec Ideal ⟨2, ![E, 3]⟩ .f32 :=
  fun j => rel j * mlp W1 b1 W2 b2 (fun i => M (ix2 (j 0) i)) 0

/-- Gate k of node n. -/
def gate {N : ℕ} (H : FVec Ideal ⟨2, ![N, 128]⟩ .f32)
    (W1 : FVec Ideal ⟨2, ![128, 128]⟩ .f32) (b1 : FVec Ideal ⟨1, ![128]⟩ .f32)
    (W2 : FVec Ideal ⟨2, ![128, 5]⟩ .f32) (b2 : FVec Ideal ⟨1, ![5]⟩ .f32) (n : Fin N) (k : Fin 5) : EReal :=
  mlp W1 b1 W2 b2 (fun i => H (ix2 n i)) k

/-- The gated velocities over N nodes: entry (n, q) is ∑ k < 5, gate k of node n · vel (n, k, q), channel 0 first. -/
def combo {N : ℕ} (H : FVec Ideal ⟨2, ![N, 128]⟩ .f32) (vel : FVec Ideal ⟨3, ![N, 5, 3]⟩ .f32)
    (W1 : FVec Ideal ⟨2, ![128, 128]⟩ .f32) (b1 : FVec Ideal ⟨1, ![128]⟩ .f32)
    (W2 : FVec Ideal ⟨2, ![128, 5]⟩ .f32) (b2 : FVec Ideal ⟨1, ![5]⟩ .f32) : FVec Ideal ⟨2, ![N, 3]⟩ .f32 :=
  fun j => gate H W1 b1 W2 b2 (j 0) 0 * vel (ix3 (j 0) 0 (j 1)) + gate H W1 b1 W2 b2 (j 0) 1 * vel (ix3 (j 0) 1 (j 1))
    + gate H W1 b1 W2 b2 (j 0) 2 * vel (ix3 (j 0) 2 (j 1)) + gate H W1 b1 W2 b2 (j 0) 3 * vel (ix3 (j 0) 3 (j 1))
    + gate H W1 b1 W2 b2 (j 0) 4 * vel (ix3 (j 0) 4 (j 1))

/-- The same sum started from zero, as a reduction over the channel axis writes it. -/
theorem combo_eq_sum {N : ℕ} (H : FVec Ideal ⟨2, ![N, 128]⟩ .f32) (vel : FVec Ideal ⟨3, ![N, 5, 3]⟩ .f32)
    (W1 : FVec Ideal ⟨2, ![128, 128]⟩ .f32) (b1 : FVec Ideal ⟨1, ![128]⟩ .f32)
    (W2 : FVec Ideal ⟨2, ![128, 5]⟩ .f32) (b2 : FVec Ideal ⟨1, ![5]⟩ .f32) (j : (⟨2, ![N, 3]⟩ : Shape).Idx) :
    combo H vel W1 b1 W2 b2 j = 0 + ∑ k : Fin 5, gate H W1 b1 W2 b2 (j 0) k * vel (ix3 (j 0) k (j 1)) := by
  rw [zero_add, Fin.sum_univ_five]; rfl

end Cert.Spec
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.EdgePayload.lean ====
/-
  The edge perceptron's block arithmetic, read at one entry.

  One block of the edge kernel holds 6400 edge rows. Entry (p, q) of what the body stores is
  rel (p, q) times the perceptron's single output on row p of the block's features: the first layer
  is the row against the weight matrix plus the bias row, through silu z = z · σ(z); the second is the hidden
  row against the weight column plus the one-entry bias. The two format changes to the narrower float format are
  the identity on the extended reals, and the products into a zero accumulator are the exact sums over the
  contraction index.
-/
import proofs.«142540_j18580028522964_1_alg».proof.Proof.Gen.KernelIdeal.Skeleton
import proofs.«142540_j18580028522964_1_alg».proof.Proof.Spec
import proofs.«142540_j18580028522964_1_alg».proof.Proof.LibPlainDot
import Idealize.ShloMosaic.Lib.ValueLayout

noncomputable section

open scoped BigOperators

namespace Cert.KernelIdeal.EdgeValue

open Cert.KernelIdeal Cert.KernelIdeal.Gen Idealize.ShloMosaic Idealize.ShloMosaic.ValueIdx

/-- A column `[a, 1]` broadcast over `b` columns reads, at `(p, c)`, the column's entry of row `p`. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic function of a vector at an index is the logistic function of the entry. -/
theorem logistic_at {s : Shape} {φ : FTy} (a : FVec Ideal s φ) (i : s.Idx) : logistic a i = Ideal.logistic (a i) := rfl

/-- The first layer before its activation, at row `p` and hidden unit `k`: row `p` of the block against column `k` of
    the weights, plus the bias of unit `k`. -/
theorem preact_at (v0 : FVec Ideal S6400x128 .f32) (v2 : FVec Ideal S128x128 .f32) (v5 : FVec Ideal S128 .f32)
    (h0 h2 : FTy.bits .bf16 < FTy.bits .f32) (hc : S128.ShapeCasts S1x128) (hb : S1x128.Broadcasts S6400x128)
    (p : Fin 6400) (k : Fin 128) :
    addf (matmul dot_S6400x128_S128x128_S6400x128_1_0_0_1_n_n none (truncf .bf16 v0 h0) (truncf .bf16 v2 h2)
          (constant S6400x128 .f32 0x00000000#32))
        (broadcastTo S6400x128 (shapeCast S1x128 v5 hc) hb) (ix2 p k)
      = (∑ i : Fin 128, v0 (ix2 p i) * v2 (ix2 i k)) + v5 (ix1 k) := by
  rw [addf_apply, broadcastTo_1b_ab_apply, shapeCast_a_1a_apply,
    Cert.PlainDot.matmul_zero_apply (d := dot_S6400x128_S128x128_S6400x128_1_0_0_1_n_n) ⟨rfl, rfl, rfl, rfl, rfl, rfl⟩ rfl rfl]
  rfl

/-- ENTRY `(p, q)` OF WHAT THE BODY STORES: `rel (p, q)` times the perceptron's output on row `p` of the block. -/
theorem payload_at (v0 : Vec Ideal S6400x128 .f32) (v2 : Vec Ideal S128x128 .f32) (v5 : Vec Ideal S128 .f32)
    (v12 : Vec Ideal S128x1 .f32) (v15 : Vec Ideal S1 .f32) (v19 : Vec Ideal S6400x3 .f32) (p : Fin 6400) (q : Fin 3) :
    k0_pay1 (F := Ideal) v0 v2 v5 v12 v15 v19 (ix2 p q)
      = v19 (ix2 p q) * Cert.Spec.mlp v2 v5 v12 v15 (fun i => v0 (ix2 p i)) 0 := by
  unfold k0_pay1
  rw [mulf_apply, shapeCast_self, broadcastTo_a1_ab_apply, addf_apply, broadcastTo_1b_ab_apply, shapeCast_a_1a_apply,
    Cert.PlainDot.matmul_zero_apply (d := dot_S6400x128_S128x1_S6400x1_1_0_0_1_n_n) ⟨rfl, rfl, rfl, rfl, rfl, rfl⟩ rfl rfl]
  unfold Cert.Spec.mlp
  refine congrArg (fun z => v19 (ix2 p q) * (z + v15 (ix1 (0 : Fin 1)))) (Finset.sum_congr rfl fun κ _ => ?_)
  rw [truncf_apply, truncf_apply, mulf_apply, logistic_at, preact_at]
  rfl

end Cert.KernelIdeal.EdgeValue

end
-- ==== Proof.EdgeArray.lean ====
/-
  From the edge kernel's blocks to its result array.

  The grid has 250 points; point t stages rows 6400 t … 6400 t + 6399 of the edge features and of the relative
  positions, and the whole weight and bias arrays, and writes back rows 6400 t … 6400 t + 6399 of the result. What it
  writes is, entry by entry, the edge message of that row: so each write-back is its block of the one array of all
  edge messages, the 250 blocks cover the 1,600,000 rows, and the result array ends holding the edge messages.
-/
import proofs.«142540_j18580028522964_1_alg».proof.Proof.Gen.KernelIdeal.Frame
import proofs.«142540_j18580028522964_1_alg».proof.Proof.EdgePayload
import Idealize.ShloMosaic.Lib.Pipeline.Value

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

theorem zero2 : (![0, 0] : Fin 2 → Nat) = fun _ => 0 := funext fun a => by fin_cases a <;> rfl
theorem zero1 : (![0] : Fin 1 → Nat) = fun _ => 0 := funext fun a => by fin_cases a <;> rfl

/-- The block indices over the grid: at point `t` the feature block, the relative-position block and the result block
    are row block `t` at column block 0; the weights and biases are at block 0 throughout. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

section Blocks
variable (V : (c : Dev nD) → (b : Ref sig .tc) → Buf (Elt Ideal) ((c : Thread nD τ).loc b))

/-- Row `y` of the feature block of point `t` is row `6400 t + y` of the feature array. -/
theorem feat_block (c : Dev nD) (t : Fin cfg0.N) (y : S6400x128.Idx) (k : S1600000x128.Idx)
    (hk0 : (k 0).val = t.val * 6400 + (y 0).val) (hk1 : (k 1).val = (y 1).val) :
    (iblk0 (F := Ideal) V c 0 t : Vec Ideal S6400x128 .f32) y = (V c main_arg1 : S1600000x128.Idx → Elt Ideal .f32) k := by
  obtain ⟨e0, e1, -⟩ := index_facts t
  unfold iblk0
  rw [View.read_apply]
  show V c main_arg1 _ = V c main_arg1 _
  congr 1
  funext a
  apply Fin.ext
  match a with
  | ⟨0, _⟩ => show win0_0.index t (0 : Fin 2) * 6400 + 1 * (y 0).val = (k 0).val; rw [e0, hk0]; omega
  | ⟨1, _⟩ => show win0_0.index t (1 : Fin 2) * 128 + 1 * (y 1).val = (k 1).val; rw [e1, hk1]; omega

/-- Row `y` of the relative-position block of point `t` is row `6400 t + y` of the relative-position array. -/
theorem rel_block (c : Dev nD) (t : Fin cfg0.N) (y : S6400x3.Idx) (k : S1600000x3.Idx)
    (hk0 : (k 0).val = t.val * 6400 + (y 0).val) (hk1 : (k 1).val = (y 1).val) :
    (iblk0 (F := Ideal) V c 1 t : Vec Ideal S6400x3 .f32) y = (V c main_v18 : S1600000x3.Idx → Elt Ideal .f32) k := by
  obtain ⟨-, -, e0, e1, -⟩ := index_facts t
  unfold iblk0
  rw [View.read_apply]
  show V c main_v18 _ = V c main_v18 _
  congr 1
  funext a
  apply Fin.ext
  match a with
  | ⟨0, _⟩ => show win0_1.index t (0 : Fin 2) * 6400 + 1 * (y 0).val = (k 0).val; rw [e0, hk0]; omega
  | ⟨1, _⟩ => show win0_1.index t (1 : Fin 2) * 3 + 1 * (y 1).val = (k 1).val; rw [e1, hk1]; omega

/-- The first layer's weight block is the whole weight array at every point. -/
theorem w1_block (c : Dev nD) (t : Fin cfg0.N) :
    (iblk0 (F := Ideal) V c 2 t : Vec Ideal S128x128 .f32) = (V c main_arg5 : S128x128.Idx → Elt Ideal .f32) := by
  obtain ⟨-, -, -, -, e0, e1, -⟩ := index_facts t
  funext y
  unfold iblk0
  rw [View.read_apply]
  show V c main_arg5 _ = V c main_arg5 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The first layer's bias block is the whole bias array at every point. -/
theorem b1_block (c : Dev nD) (t : Fin cfg0.N) :
    (iblk0 (F := Ideal) V c 3 t : Vec Ideal S128 .f32) = (V c main_arg6 : S128.Idx → Elt Ideal .f32) := by
  obtain ⟨-, -, -, -, -, -, e0, -⟩ := index_facts t
  funext y
  unfold iblk0
  rw [View.read_apply]
  show V c main_arg6 _ = V c main_arg6 _
  congr 1
  funext a
  apply Fin.ext
  match a with
  | ⟨0, _⟩ => show win0_3.index t (0 : Fin 1) * 128 + 1 * (y 0).val = (y 0).val; rw [e0]; omega

/-- The second layer's weight block is the whole weight column at every point. -/
theorem w2_block (c : Dev nD) (t : Fin cfg0.N) :
    (iblk0 (F := Ideal) V c 4 t : Vec Ideal S128x1 .f32) = (V c main_arg7 : S128x1.Idx → Elt Ideal .f32) := by
  obtain ⟨-, -, -, -, -, -, -, e0, e1, -⟩ := index_facts t
  funext y
  unfold iblk0
  rw [View.read_apply]
  show V c main_arg7 _ = V c main_arg7 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 1 + 1 * (y 1).val = (y 1).val; rw [e1]; omega

/-- The second layer's bias block is the whole one-entry bias array at every point. -/
theorem b2_block (c : Dev nD) (t : Fin cfg0.N) :
    (iblk0 (F := Ideal) V c 5 t : Vec Ideal S1 .f32) = (V c main_arg8 : S1.Idx → Elt Ideal .f32) := by
  obtain ⟨-, -, -, -, -, -, -, -, -, e0, -⟩ := index_facts t
  funext y
  unfold iblk0
  rw [View.read_apply]
  show V c main_arg8 _ = V c main_arg8 _
  congr 1
  funext a
  apply Fin.ext
  match a with
  | ⟨0, _⟩ => show win0_5.index t (0 : Fin 1) * 1 + 1 * (y 0).val = (y 0).val; rw [e0]; omega

end Blocks

/-- ONE ENTRY OF ONE BLOCK: if the feature block `x0` and the relative-position block `x1` are rows `6400 n + ·` of the
    arrays `M` and `rel`, then entry `j` of what the body stores is the edge message at the array index `i` that lies
    `6400 n` rows below `j`. -/
theorem entry_eq (rel : FVec Ideal S1600000x3 .f32) (M : FVec Ideal S1600000x128 .f32)
    (W1 : FVec Ideal S128x128 .f32) (b1 : FVec Ideal S128 .f32) (W2 : FVec Ideal S128x1 .f32) (b2 : FVec Ideal S1 .f32)
    (x0 : Vec Ideal S6400x128 .f32) (x1 : Vec Ideal S6400x3 .f32) (n : ℕ)
    (h0 : ∀ (y : S6400x128.Idx) (k : S1600000x128.Idx), (k 0).val = n * 6400 + (y 0).val → (k 1).val = (y 1).val → x0 y = M k)
    (h1 : ∀ (y : S6400x3.Idx) (k : S1600000x3.Idx), (k 0).val = n * 6400 + (y 0).val → (k 1).val = (y 1).val → x1 y = rel k)
    (j : S6400x3.Idx) (i : S1600000x3.Idx) (hi0 : (i 0).val = n * 6400 + (j 0).val) (hi1 : (i 1).val = (j 1).val) :
    k0_pay1 (F := Ideal) x0 W1 b1 W2 b2 x1 j = Cert.Spec.msg rel M W1 b1 W2 b2 i := by
  obtain ⟨p, q, rfl⟩ : ∃ (p : Fin 6400) (q : Fin 3), j = ix2 p q := ⟨j 0, j 1, eq_ix2 j⟩
  rw [payload_at, h1 (ix2 p q) i hi0 hi1]
  unfold Cert.Spec.msg
  have hrow : (fun a : Fin 128 => x0 (ix2 p a)) = fun a : Fin 128 => M (ix2 (i 0) a) :=
    funext fun a => h0 (ix2 p a) (ix2 (i 0) a) hi0 rfl
  rw [hrow]

section Array
variable (V : (c : Dev nD) → (b : Ref sig .tc) → Buf (Elt Ideal) ((c : Thread nD τ).loc b))

/-- WHAT POINT `t` WRITES BACK is block `t` of the array of edge messages. -/
theorem flushed_eq (c : Dev nD) (t : Fin cfg0.N) :
    (dat0 (F := Ideal) V c).flushed 6 t
      = ((cfg0.win 6).blk t).view.read (Elt Ideal)
          (Cert.Spec.msg (V c main_v18) (V c main_arg1) (V c main_arg5) (V c main_arg6) (V c main_arg7) (V c main_arg8)) := by
  show (cfg0.win 6).cut (grid0.coords t) ((dat0 V c).after 6 t) = _
  rw [after0_6]
  unfold out0_6
  rw [View.canon_unit_zero zero2]
  simp only [View.ld_unit_zero (S := S6400x128) zero2, View.ld_unit_zero (S := S6400x3) zero2, View.ld_unit_zero (S := S128x128) zero2,
    View.ld_unit_zero (S := S128x1) zero2, View.ld_unit_zero (S := S128) zero1, View.ld_unit_zero (S := S1) zero1]
  rw [w1_block, b1_block, w2_block, b2_block]
  obtain ⟨-, -, -, -, -, -, -, -, -, -, e0, e1⟩ := index_facts t
  funext j
  show k0_pay1 (F := Ideal) (iblk0 V c 0 t) (V c main_arg5) (V c main_arg6) (V c main_arg7) (V c main_arg8) (iblk0 V c 1 t) j
    = Cert.Spec.msg (V c main_v18) (V c main_arg1) (V c main_arg5) (V c main_arg6) (V c main_arg7) (V c main_arg8) (((cfg0.win 6).blk t).view.emb j)
  refine entry_eq _ _ _ _ _ _ _ _ t.val (fun y k => feat_block V c t y k) (fun y k => rel_block V c t y k) j _ ?_ ?_
  · show win0_6.index t (0 : Fin 2) * 6400 + 1 * (j 0).val = t.val * 6400 + (j 0).val; rw [e0]; omega
  · show win0_6.index t (1 : Fin 2) * 3 + 1 * (j 1).val = (j 1).val; rw [e1]; omega

/-- An index of the result array is in point `t`'s block iff each coordinate is in the block's range on its axis. -/
theorem mem_block (t : Fin cfg0.N) (i : S1600000x3.Idx) :
    i ∈ ((cfg0.win 6).blk t).view.set ↔ ∀ a : Fin 2, win0_6.index t a * S6400x3.size a ≤ (i a).val ∧ (i a).val < win0_6.index t a * S6400x3.size a + S6400x3.size a := by
  show i ∈ ((View.whole main_v19).slice (win0_6.rect t)).set ↔ _
  rw [View.set_slice_whole, Rect.mem_set_unit]
  exact Iff.rfl

/-- Row `r` of the result lies in the block of point `r / 6400`. -/
theorem cover (c : Dev nD) (i : ((cfg0.win 6).arr.view.loc (c.tc : Thread nD τ)).2.ty.Idx) :
    ∃ t : Fin cfg0.N, (cfg0.win 6).flush t = true ∧ i ∈ ((cfg0.win 6).blk t).view.set := by
  have hi0 : (i 0).val < 1600000 := (i 0).isLt
  have hi1 : (i 1).val < 3 := (i 1).isLt
  have ht : (i 0).val / 6400 < cfg0.N := by show (i 0).val / 6400 < 250; omega
  obtain ⟨-, -, -, -, -, -, -, -, -, -, e0, e1⟩ := index_facts ⟨(i 0).val / 6400, ht⟩
  refine ⟨⟨(i 0).val / 6400, ht⟩, flush0_6 _, ?_⟩
  rw [mem_block]
  intro a
  match a with
  | ⟨0, _⟩ =>
    show win0_6.index ⟨(i 0).val / 6400, ht⟩ (0 : Fin 2) * 6400 ≤ (i 0).val ∧ (i 0).val < win0_6.index ⟨(i 0).val / 6400, ht⟩ (0 : Fin 2) * 6400 + 6400
    rw [e0]; show (i 0).val / 6400 * 6400 ≤ (i 0).val ∧ (i 0).val < (i 0).val / 6400 * 6400 + 6400; omega
  | ⟨1, _⟩ =>
    show win0_6.index ⟨(i 0).val / 6400, ht⟩ (1 : Fin 2) * 3 ≤ (i 1).val ∧ (i 1).val < win0_6.index ⟨(i 0).val / 6400, ht⟩ (1 : Fin 2) * 3 + 3
    rw [e1]; omega

end Array

/-- THE RESULT ARRAY after the region: the edge messages of the relative positions and the edge features under the edge
    perceptron's weights, all read off the arrays as the region finds them. -/
theorem msg_arr (V : (c : Dev nD) → (b : Ref sig .tc) → Buf (Elt Ideal) ((c : Thread nD τ).loc b)) (c : Dev nD) :
    (dat0 (F := Ideal) V c).arrAt 6 cfg0.N
      = Cert.Spec.msg (V c main_v18) (V c main_arg1) (V c main_arg5) (V c main_arg6) (V c main_arg7) (V c main_arg8) :=
  (dat0 V c).arrAt_eq_of_cover 6
    (Cert.Spec.msg (V c main_v18) (V c main_arg1) (V c main_arg5) (V c main_arg6) (V c main_arg7) (V c main_arg8))
    (fun t _ => flushed_eq V c t) (cover c)

end Cert.KernelIdeal.EdgeValue

end
-- ==== Proof.GatePayload.lean ====
/-
  The vector-gate kernel's arithmetic at one entry of its block.

  A block of 5000 node rows x goes through the gate perceptron: the product x · W1 plus the bias row b1, silu, the
  product with W2 plus the bias row b2, a [5000, 5] matrix of gates. Column k of the gates, repeated over the three
  velocity components, multiplies channel k of the velocity block [5000, 5, 3] (cut out along the channel axis and viewed
  [5000, 3]); the five products are added from channel 0 up. The narrowing of the products' operands is the identity on
  extended reals, so entry (p, q) of the stored block is
  gate 0 · vel (p, 0, q) + gate 1 · vel (p, 1, q) + … + gate 4 · vel (p, 4, q), gate k the perceptron's output k on row p.
-/
import proofs.«142540_j18580028522964_1_alg».proof.Proof.Gen.KernelIdeal.Skeleton
import proofs.«142540_j18580028522964_1_alg».proof.Proof.Spec
import proofs.«142540_j18580028522964_1_alg».proof.Proof.LibPlainDot
import Idealize.ShloMosaic.Lib.ValueIdx
import Idealize.ShloMosaic.Lib.ValueLayout

noncomputable section

open scoped BigOperators

namespace Cert.KernelIdeal.GateValue

open Cert.KernelIdeal Cert.KernelIdeal.Gen Idealize.ShloMosaic Idealize.ShloMosaic.ValueIdx

/-! ## Three layout operations read at an index given by coordinates -/

section Layout
variable {α : Type}

/-- A bias vector [n] viewed [1, n] and repeated over a rows reads, at (p, c), the bias at c. -/
theorem biasRow_apply {a n : ℕ} (b : (⟨1, ![n]⟩ : Shape).Idx → α) (hc : (⟨1, ![n]⟩ : Shape).ShapeCasts ⟨2, ![1, n]⟩)
    (hb : (⟨2, ![1, n]⟩ : Shape).Broadcasts ⟨2, ![a, n]⟩) (p : Fin a) (c : Fin n) :
    broadcastTo ⟨2, ![a, n]⟩ (shapeCast ⟨2, ![1, n]⟩ b hc) hb (ix2 p c) = b (ix1 c) :=
  (broadcastTo_1b_ab_apply _ hb p c).trans (shapeCast_a_1a_apply b hc 0 c)

/-- A column [a, 1] repeated over b columns reads, at (p, q), the column at p. -/
theorem column_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An [a, 1, b] array viewed [a, b] reads, at (p, q), the operand at (p, 0, q): the same row-major position. -/
theorem dropMiddleUnit_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

end Layout

/-! ## The gate perceptron on a block of rows -/

/-- The logistic function at an index is the extended reals' logistic of the element. -/
theorem logistic_apply {s : Shape} {φ : FTy} (x : FVec Ideal s φ) (i : s.Idx) : logistic x i = Ideal.logistic (x i) := rfl

/-- Entry (p, κ) of the first layer before silu: row p of the block times column κ of W1, plus the bias. -/
theorem preact_apply (v0 : Vec Ideal S5000x128 .f32) (v2 : Vec Ideal S128x128 .f32) (v5 : Vec Ideal S128 .f32)
    (p : Fin 5000) (κ : Fin 128) :
    addf (F := Ideal) (matmul dot_S5000x128_S128x128_S5000x128_1_0_0_1_n_n none (truncf (F := Ideal) .bf16 v0 bitsLt_bf16_f32)
        (truncf (F := Ideal) .bf16 v2 bitsLt_bf16_f32) (constant S5000x128 .f32 0x00000000#32))
      (broadcastTo S5000x128 (shapeCast S1x128 v5 shapeCasts_S128_S1x128) broadcasts_S1x128_S5000x128) (ix2 p κ)
      = (∑ i : Fin 128, v0 (ix2 p i) * v2 (ix2 i κ)) + v5 (ix1 κ) := by
  rw [addf_apply, Cert.PlainDot.matmul_zero_apply ⟨rfl, rfl, rfl, rfl, rfl, rfl⟩ rfl rfl, biasRow_apply]
  simp only [truncf_apply]

/-- Entry (p, k) of the gates: output k of the perceptron on row p of the block. -/
theorem gates_apply (v0 : Vec Ideal S5000x128 .f32) (v2 : Vec Ideal S128x128 .f32) (v5 : Vec Ideal S128 .f32)
    (v12 : Vec Ideal S128x5 .f32) (v15 : Vec Ideal S5 .f32) (p : Fin 5000) (k : Fin 5) :
    k1_pay2 (F := Ideal) v0 v2 v5 v12 v15 (ix2 p k) = Cert.Spec.mlp v2 v5 v12 v15 (fun i => v0 (ix2 p i)) k := by
  unfold k1_pay2 Cert.Spec.mlp Cert.Spec.hidden Cert.Spec.silu
  dsimp only
  rw [addf_apply, Cert.PlainDot.matmul_zero_apply ⟨rfl, rfl, rfl, rfl, rfl, rfl⟩ rfl rfl, biasRow_apply]
  congr 1
  refine Finset.sum_congr rfl fun κ _ => ?_
  rw [truncf_apply, truncf_apply, mulf_apply, logistic_apply, preact_apply]

/-! ## One channel: the gate's column and the velocity's slab -/

section Channel
variable {α : Type}

/-- Column o of an [a, n] matrix, cut out and repeated over b columns, reads at (p, q) the matrix at (p, o). -/
theorem cutColumn_apply {a n b : ℕ} (o : ℕ) (G : (⟨2, ![a, n]⟩ : Shape).Idx → α)
    (hs : (⟨2, ![a, n]⟩ : Shape).Slices ![0, o] ⟨2, ![a, 1]⟩) (hb : (⟨2, ![a, 1]⟩ : Shape).Broadcasts ⟨2, ![a, b]⟩)
    (p : Fin a) (q : Fin b) (c : Fin n) (hc : c.val = o) :
    broadcastTo ⟨2, ![a, b]⟩ (extractStridedSlice ⟨2, ![a, 1]⟩ ![0, o] G hs) hb (ix2 p q) = G (ix2 p c) :=
  (column_apply _ hb p q).trans (slice2_axis1_apply o G hs p 0 c (hc.trans (Nat.add_zero o).symm))

/-- Slab o of an [a, n, b] array along its middle axis, cut out and viewed [a, b], reads at (p, q) the array at (p, o, q). -/
theorem cutSlab_apply {a n b : ℕ} (o : ℕ) (X : (⟨3, ![a, n, b]⟩ : Shape).Idx → α)
    (hs : (⟨3, ![a, n, b]⟩ : Shape).Slices ![0, o, 0] ⟨3, ![a, 1, b]⟩) (hc : (⟨3, ![a, 1, b]⟩ : Shape).ShapeCasts ⟨2, ![a, b]⟩)
    (p : Fin a) (q : Fin b) (c : Fin n) (h : c.val = o) :
    shapeCast ⟨2, ![a, b]⟩ (extractStridedSlice ⟨3, ![a, 1, b]⟩ ![0, o, 0] X hs) hc (ix2 p q) = X (ix3 p c q) :=
  (dropMiddleUnit_apply _ hc p q).trans (slice3_axis1_apply o X hs p 0 q c (h.trans (Nat.add_zero o).symm))

end Channel

/-! ## The stored block -/

/-- Entry (p, q) of the block the kernel stores: the five gates of row p times the five velocity channels' component q,
    added from channel 0 up. -/
theorem stored_apply (v0 : Vec Ideal S5000x128 .f32) (v2 : Vec Ideal S128x128 .f32) (v5 : Vec Ideal S128 .f32)
    (v12 : Vec Ideal S128x5 .f32) (v15 : Vec Ideal S5 .f32) (v19 : Vec Ideal S5000x5x3 .f32) (p : Fin 5000) (q : Fin 3) :
    k1_pay1 (F := Ideal) (k1_pay3 v0 v2 v5 v12 v15 v19) (k1_pay4 v0 v2 v5 v12 v15) (k1_pay5 v19) (ix2 p q)
      = Cert.Spec.mlp v2 v5 v12 v15 (fun i => v0 (ix2 p i)) 0 * v19 (ix3 p 0 q)
        + Cert.Spec.mlp v2 v5 v12 v15 (fun i => v0 (ix2 p i)) 1 * v19 (ix3 p 1 q)
        + Cert.Spec.mlp v2 v5 v12 v15 (fun i => v0 (ix2 p i)) 2 * v19 (ix3 p 2 q)
        + Cert.Spec.mlp v2 v5 v12 v15 (fun i => v0 (ix2 p i)) 3 * v19 (ix3 p 3 q)
        + Cert.Spec.mlp v2 v5 v12 v15 (fun i => v0 (ix2 p i)) 4 * v19 (ix3 p 4 q) := by
  unfold k1_pay1 k1_pay3 k1_pay4 k1_pay5
  dsimp only
  simp only [addf_apply, mulf_apply]
  rw [cutColumn_apply 0 _ _ _ p q 0 rfl, cutColumn_apply 1 _ _ _ p q 1 rfl, cutColumn_apply 2 _ _ _ p q 2 rfl,
    cutColumn_apply 3 _ _ _ p q 3 rfl, cutColumn_apply 4 _ _ _ p q 4 rfl,
    cutSlab_apply 0 _ _ _ p q 0 rfl, cutSlab_apply 1 _ _ _ p q 1 rfl, cutSlab_apply 2 _ _ _ p q 2 rfl,
    cutSlab_apply 3 _ _ _ p q 3 rfl, cutSlab_apply 4 _ _ _ p q 4 rfl]
  simp only [gates_apply]

/-! ## The stored block against the specification -/

/-- The stored entry is the specification's gated velocity at (P, Q) when the block's operands are read off whole arrays
    there: row p of the node block is row P of the node features, and the velocity block at (p, ·, q) is the velocity
    array at (P, ·, Q). -/
theorem stored_eq_combo {N : ℕ} (H : FVec Ideal ⟨2, ![N, 128]⟩ .f32) (vel : FVec Ideal ⟨3, ![N, 5, 3]⟩ .f32)
    (W1 : Vec Ideal S128x128 .f32) (b1 : Vec Ideal S128 .f32) (W2 : Vec Ideal S128x5 .f32) (b2 : Vec Ideal S5 .f32)
    (x0 : Vec Ideal S5000x128 .f32) (x1 : Vec Ideal S5000x5x3 .f32) (p : Fin 5000) (q : Fin 3) (P : Fin N) (Q : Fin 3)
    (h0 : ∀ i : Fin 128, x0 (ix2 p i) = H (ix2 P i)) (h1 : ∀ k : Fin 5, x1 (ix3 p k q) = vel (ix3 P k Q)) :
    k1_pay1 (F := Ideal) (k1_pay3 x0 W1 b1 W2 b2 x1) (k1_pay4 x0 W1 b1 W2 b2) (k1_pay5 x1) (ix2 p q)
      = Cert.Spec.combo H vel W1 b1 W2 b2 (ix2 P Q) := by
  rw [stored_apply]
  unfold Cert.Spec.combo Cert.Spec.gate
  simp only [h0, h1]
  rfl

end Cert.KernelIdeal.GateValue

end
-- ==== Proof.GateArray.lean ====
/-
  From the vector-gate kernel's blocks to the whole array of gated velocities.

  The grid has 20 points; point t stages rows 5000·t … 5000·t + 4999 of the node features and of the velocities, the
  whole of the four weight arrays, and writes back rows 5000·t … 5000·t + 4999 of the result. So what point t writes
  back is block t of ONE array, the specification's gated velocities of the region's entry arrays; the 20 blocks
  cover the 100000 rows (row r lies in the block of point r / 5000), hence the result array ends holding exactly that.
-/
import proofs.«142540_j18580028522964_1_alg».proof.Proof.GatePayload
import proofs.«142540_j18580028522964_1_alg».proof.Proof.Gen.KernelIdeal.Frame
import Idealize.ShloMosaic.Lib.Pipeline.Value

noncomputable section

namespace Cert.KernelIdeal.GateValue

open Cert.KernelIdeal Cert.KernelIdeal.Gen Idealize.ShloMosaic Idealize.ShloMosaic.TcCoe Idealize.SL.Sem
open Idealize.ShloMosaic.Pipeline (Dat)
open Idealize.ShloMosaic.ValueIdx

/-! ## Zero offsets, however spelt -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The index maps over the grid -/

/-- The printed index maps, decided over the 20 points: the node rows and the velocity rows move with the result's rows,
    every other block index is zero, and the result's row block at point t is t. -/
theorem block_indices : ∀ t : Fin cfg1.N,
    win1_0.index t (0 : Fin 2) = win1_6.index t (0 : Fin 2) ∧ win1_0.index t (1 : Fin 2) = 0
    ∧ win1_1.index t (0 : Fin 3) = win1_6.index t (0 : Fin 2) ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-! ## Each input block read off its array -/

/-- The first layer's weights are staged whole at every point. -/
theorem weights1_block (c : Dev nD) (t : Fin cfg1.N) :
    (iblk1 V c 2 t : Vec Ideal S128x128 .f32) = (V c main_arg9 : S128x128.Idx → Elt Ideal .f32) := by
  obtain ⟨-, -, -, -, -, e0, e1, -⟩ := block_indices t
  funext y
  unfold iblk1
  rw [View.read_apply]
  show V c main_arg9 _ = V c main_arg9 y
  congr 1
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first layer's bias is staged whole at every point. -/
theorem bias1_block (c : Dev nD) (t : Fin cfg1.N) :
    (iblk1 V c 3 t : Vec Ideal S128 .f32) = (V c main_arg10 : S128.Idx → Elt Ideal .f32) := by
  obtain ⟨-, -, -, -, -, -, -, e0, -⟩ := block_indices t
  funext y
  unfold iblk1
  rw [View.read_apply]
  show V c main_arg10 _ = V c main_arg10 y
  congr 1
  funext a; apply Fin.ext
  match a with
  | ⟨0, _⟩ => show win1_3.index t (0 : Fin 1) * 128 + 1 * (y 0).val = (y 0).val; omega

/-- The second layer's weights are staged whole at every point. -/
theorem weights2_block (c : Dev nD) (t : Fin cfg1.N) :
    (iblk1 V c 4 t : Vec Ideal S128x5 .f32) = (V c main_arg11 : S128x5.Idx → Elt Ideal .f32) := by
  obtain ⟨-, -, -, -, -, -, -, -, e0, e1, -⟩ := block_indices t
  funext y
  unfold iblk1
  rw [View.read_apply]
  show V c main_arg11 _ = V c main_arg11 y
  congr 1
  funext a; apply Fin.ext
  match a with
  | ⟨0, _⟩ => show win1_4.index t (0 : Fin 2) * 128 + 1 * (y 0).val = (y 0).val; omega
  | ⟨1, _⟩ => show win1_4.index t (1 : Fin 2) * 5 + 1 * (y 1).val = (y 1).val; omega

/-- The second layer's bias is staged whole at every point. -/
theorem bias2_block (c : Dev nD) (t : Fin cfg1.N) :
    (iblk1 V c 5 t : Vec Ideal S5 .f32) = (V c main_arg12 : S5.Idx → Elt Ideal .f32) := by
  obtain ⟨-, -, -, -, -, -, -, -, -, -, e0, -⟩ := block_indices t
  funext y
  unfold iblk1
  rw [View.read_apply]
  show V c main_arg12 _ = V c main_arg12 y
  congr 1
  funext a; apply Fin.ext
  match a with
  | ⟨0, _⟩ => show win1_5.index t (0 : Fin 1) * 5 + 1 * (y 0).val = (y 0).val; omega

/-- Row p of the node block at point t is row P of the node features, P the row the result's block puts p at. -/
theorem nodes_block (c : Dev nD) (t : Fin cfg1.N) (p : Fin 5000) (i : Fin 128) (P : Fin 100000)
    (hP : P.val = win1_6.index t (0 : Fin 2) * 5000 + p.val) :
    (iblk1 V c 0 t : Vec Ideal S5000x128 .f32) (ix2 p i) = (V c main_arg0 : S100000x128.Idx → Elt Ideal .f32) (ix2 P i) := by
  obtain ⟨e0, e1, -⟩ := block_indices t
  unfold iblk1
  rw [View.read_apply]
  show V c main_arg0 _ = V c main_arg0 (ix2 P i)
  congr 1
  funext a; apply Fin.ext
  match a with
  | ⟨0, _⟩ => show win1_0.index t (0 : Fin 2) * 5000 + 1 * p.val = P.val; omega
  | ⟨1, _⟩ => show win1_0.index t (1 : Fin 2) * 128 + 1 * i.val = i.val; omega

/-- Entry (p, k, q) of the velocity block at point t is entry (P, k, q) of the velocities. -/
theorem velocities_block (c : Dev nD) (t : Fin cfg1.N) (p : Fin 5000) (k : Fin 5) (q : Fin 3) (P : Fin 100000)
    (hP : P.val = win1_6.index t (0 : Fin 2) * 5000 + p.val) :
    (iblk1 V c 1 t : Vec Ideal S5000x5x3 .f32) (ix3 p k q) = (V c main_arg3 : S100000x5x3.Idx → Elt Ideal .f32) (ix3 P k q) := by
  obtain ⟨-, -, e0, e1, e2, -⟩ := block_indices t
  unfold iblk1
  rw [View.read_apply]
  show V c main_arg3 _ = V c main_arg3 (ix3 P k q)
  congr 1
  funext a; apply Fin.ext
  match a with
  | ⟨0, _⟩ => show win1_1.index t (0 : Fin 3) * 5000 + 1 * p.val = P.val; omega
  | ⟨1, _⟩ => show win1_1.index t (1 : Fin 3) * 5 + 1 * k.val = k.val; omega
  | ⟨2, _⟩ => show win1_1.index t (2 : Fin 3) * 3 + 1 * q.val = q.val; omega

/-! ## What a point writes back -/

/-- WHAT POINT t WRITES BACK is block t of the specification's gated velocities of the entry arrays. -/
theorem flushed_eq (c : Dev nD) (t : Fin cfg1.N) :
    (dat1 V c).flushed 6 t = ((cfg1.win 6).blk t).view.read (Elt Ideal)
      (Cert.Spec.combo (V c main_arg0) (V c main_arg3) (V c main_arg9) (V c main_arg10) (V c main_arg11) (V c main_arg12)) := by
  show (cfg1.win 6).cut (grid1.coords t) ((dat1 V c).after 6 t) = _
  rw [after1_6]
  unfold out1_6
  rw [View.canon_unit_zero zeros2]
  simp only [View.ld_unit_zero (S := S5000x128) zeros2, View.ld_unit_zero (S := S128x128) zeros2,
    View.ld_unit_zero (S := S128) zeros1, View.ld_unit_zero (S := S128x5) zeros2, View.ld_unit_zero (S := S5) zeros1,
    View.ld_unit_zero (S := S5000x5x3) zeros3]
  rw [weights1_block, bias1_block, weights2_block, bias2_block]
  funext j
  obtain ⟨p, q, rfl⟩ : ∃ (p : Fin 5000) (q : Fin 3), j = ix2 p q := ⟨j 0, j 1, eq_ix2 j⟩
  obtain ⟨-, -, -, -, -, -, -, -, -, -, -, e6, e7⟩ := block_indices t
  have ht : t.val < 20 := lt_of_lt_of_eq t.isLt N_1
  have hp : p.val < 5000 := p.isLt
  refine (stored_eq_combo (V c main_arg0) (V c main_arg3) _ _ _ _ _ _ p q
    (⟨win1_6.index t (0 : Fin 2) * 5000 + p.val, by omega⟩ : Fin 100000) q
    (fun i => nodes_block V c t p i _ rfl) (fun k => velocities_block V c t p k q _ rfl)).trans ?_
  rw [View.read_apply]
  congr 1
  funext a; apply Fin.ext
  match a with
  | ⟨0, _⟩ => show win1_6.index t (0 : Fin 2) * 5000 + p.val = win1_6.index t (0 : Fin 2) * 5000 + 1 * p.val; omega
  | ⟨1, _⟩ => show q.val = win1_6.index t (1 : Fin 2) * 3 + 1 * q.val; omega

/-! ## The blocks cover the array -/

/-- An index of the result array is in point t's block iff each coordinate is in the block's range on its axis. -/
theorem mem_block (t : Fin cfg1.N) (i : S100000x3.Idx) :
    i ∈ ((cfg1.win 6).blk t).view.set ↔ ∀ a : Fin 2, win1_6.index t a * S5000x3.size a ≤ (i a).val ∧ (i a).val < win1_6.index t a * S5000x3.size a + S5000x3.size a := by
  show i ∈ ((View.whole main_v32).slice (win1_6.rect t)).set ↔ _
  rw [View.set_slice_whole, Rect.mem_set_unit]
  exact Iff.rfl

/-- Row r lies in the block of point r / 5000, which writes back. -/
theorem covered (i : S100000x3.Idx) :
    ∃ t : Fin cfg1.N, (cfg1.win 6).flush t = true ∧ i ∈ ((cfg1.win 6).blk t).view.set := by
  have hi0 : (i 0).val < 100000 := (i 0).isLt
  have hi1 : (i 1).val < 3 := (i 1).isLt
  let t : Fin cfg1.N := ⟨(i 0).val / 5000, by rw [show cfg1.N = 20 from N_1]; omega⟩
  obtain ⟨-, -, -, -, -, -, -, -, -, -, -, e6, e7⟩ := block_indices t
  have ht : t.val = (i 0).val / 5000 := rfl
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 3 ≤ (i 1).val ∧ (i 1).val < win1_6.index t (1 : Fin 2) * 3 + 3; omega

/-! ## The array after the region -/

/-- THE RESULT ARRAY after the region: the specification's gated velocities of the arrays as the region finds them. -/
theorem combo_arr (c : Dev nD) :
    (dat1 (F := Ideal) V c).arrAt 6 cfg1.N
      = Cert.Spec.combo (V c main_arg0) (V c main_arg3) (V c main_arg9) (V c main_arg10) (V c main_arg11) (V c main_arg12) :=
  (dat1 V c).arrAt_eq_of_cover 6
    (Cert.Spec.combo (V c main_arg0) (V c main_arg3) (V c main_arg9) (V c main_arg10) (V c main_arg11) (V c main_arg12))
    (fun t _ => flushed_eq V c t) covered

end Cert.KernelIdeal.GateValue

end
-- ==== Proof.RefMsg.lean ====
/-
  The edge messages of the reference program are the specification's edge messages.

  The reference computes, for edge e and component q,  rel (e, q) · w e,  where w e is the single output of the edge
  perceptron on row e of the edge features M:
    pre (e, k)    = ∑ i < 128, M (e, i) · W1 (i, k) + b1 k           (a matrix product, then the bias row broadcast down)
    hidden (e, k) = pre (e, k) · (1 / (1 + exp (−pre (e, k))))       (silu, spelt with negate, exp, add and divide)
    w e           = ∑ k < 128, hidden (e, k) · W2 (k, 0) + b2 0      (a matrix product into one column, then the bias)
  and w is broadcast along the three components before the final product with rel.

  Over the extended reals the quotient 1 / (1 + exp (−z)) is the logistic function by definition, and the bit pattern
  0x3F800000 is the number one; so hidden (e, k) is silu (pre (e, k)) of the specification. Each stage below is read at
  one entry (e, k), (e, 0) or (e, q); the only work besides citing the stage's reading is to identify the stage's
  composed index functions with the plain coordinates, which holds coordinate by coordinate.
-/
import proofs.«142540_j18580028522964_1_alg».proof.Proof.Gen.ReferenceIdeal.Read
import proofs.«142540_j18580028522964_1_alg».proof.Proof.Spec
import Idealize.ShloMosaic.Lib.IdealHost

noncomputable section

open scoped BigOperators

namespace Cert.ReferenceIdeal.RefValue

open Cert.ReferenceIdeal Idealize.ShloMosaic Idealize.ShloMosaic.TcCoe Idealize.SL.Sem
open Idealize.ShloMosaic.ValueIdx

/-- The pre-activation of hidden unit k on edge e: row e of the features against column k of the first weight matrix,
plus the bias of unit k (the bias vector is broadcast to one row and then down all rows). -/
theorem msg_pre (x1 : (⟨S1600000x128, .f32⟩ : BufTy).Contents (Elt Ideal)) (x5 : (⟨S128x128, .f32⟩ : BufTy).Contents (Elt Ideal))
    (x6 : (⟨S128, .f32⟩ : BufTy).Contents (Elt Ideal)) (e : Fin 1600000) (k : Fin 128) :
    Read.val_main_v22 (F := Ideal) x1 x5 x6 (ix2 e k) = (∑ i : Fin 128, x1 (ix2 e i) * x5 (ix2 i k)) + x6 (ix1 k) := by
  -- the product reads the left operand at (e, i) and the right at (i, k)
  have el : ∀ i : Fin 128, Read.lidx_main_v19 (ix2 e k) i = ix2 e i := fun i => funext fun a => by
    match a with | ⟨0, _⟩ => rfl | ⟨1, _⟩ => rfl
  have er : ∀ i : Fin 128, Read.ridx_main_v19 (ix2 e k) i = ix2 i k := fun i => funext fun a => by
    match a with | ⟨0, _⟩ => rfl | ⟨1, _⟩ => rfl
  -- the two broadcasts of the bias read it at k
  have eb : Read.idx_main_v20 (Read.idx_main_v21 (ix2 e k)) = ix1 k := funext fun a => by
    match a with | ⟨0, _⟩ => rfl
  rw [Read.val_main_v22_apply, Read.val_main_v19_apply, Read.val_main_v21_apply, Read.val_main_v20_apply, eb]
  simp only [el, er, Ideal.addf_def]

/-- Hidden unit k on edge e: z · (1 / (1 + exp (−z))) at z the pre-activation, which is silu z since the quotient is the
logistic function and the constant 0x3F800000 is one. -/
theorem msg_hidden (x1 : (⟨S1600000x128, .f32⟩ : BufTy).Contents (Elt Ideal)) (x5 : (⟨S128x128, .f32⟩ : BufTy).Contents (Elt Ideal))
    (x6 : (⟨S128, .f32⟩ : BufTy).Contents (Elt Ideal)) (e : Fin 1600000) (k : Fin 128) :
    Read.val_main_v23 (F := Ideal) x1 x5 x6 (ix2 e k) = Cert.Spec.hidden x5 x6 (fun i => x1 (ix2 e i)) k := by
  rw [Read.val_main_v23_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, msg_pre]
  simp only [Ideal.mulf_def, Ideal.hostDivf_def, Ideal.addf_def, Ideal.hostUnary_exp_def, Ideal.hostNegf_def, Ideal.negf_def,
    Ideal.ofBits_def, Ideal.ofBits_one_f32]
  -- both sides are now z * (1 / (1 + exp (-z))) with the same z, the right one folded into silu and the logistic function
  rfl

/-- The edge perceptron's single output on edge e: the hidden row against the one column of the second weight matrix,
plus the one bias. -/
theorem msg_out (x1 : (⟨S1600000x128, .f32⟩ : BufTy).Contents (Elt Ideal)) (x5 : (⟨S128x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) (e : Fin 1600000) :
    Read.val_main_v27 (F := Ideal) x1 x5 x6 x7 x8 (ix2 e 0) = Cert.Spec.mlp x5 x6 x7 x8 (fun i => x1 (ix2 e i)) 0 := by
  have el : ∀ k : Fin 128, Read.lidx_main_v24 (ix2 e (0 : Fin 1)) k = ix2 e k := fun k => funext fun a => by
    match a with | ⟨0, _⟩ => rfl | ⟨1, _⟩ => rfl
  have er : ∀ k : Fin 128, Read.ridx_main_v24 (ix2 e (0 : Fin 1)) k = ix2 k (0 : Fin 1) := fun k => funext fun a => by
    match a with | ⟨0, _⟩ => rfl | ⟨1, _⟩ => rfl
  have eb : Read.idx_main_v25 (Read.idx_main_v26 (ix2 e (0 : Fin 1))) = ix1 (0 : Fin 1) := funext fun a => by
    match a with | ⟨0, _⟩ => rfl
  rw [Read.val_main_v27_apply, Read.val_main_v24_apply, Read.val_main_v26_apply, Read.val_main_v25_apply, eb]
  simp only [el, er, Ideal.addf_def, msg_hidden]
  rfl

/-- The message of edge e, component q: rel (e, q) times the edge weight, which the broadcast reads at (e, 0). -/
theorem msg_at (x1 : (⟨S1600000x128, .f32⟩ : BufTy).Contents (Elt Ideal)) (x2 : (⟨S100000x3, .f32⟩ : BufTy).Contents (Elt Ideal))
    (x4 : (⟨S2x1600000, .i32⟩ : BufTy).Contents (Elt Ideal)) (x5 : (⟨S128x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) (e : Fin 1600000) (q : Fin 3) :
    Read.val_main_v29 (F := Ideal) x1 x2 x4 x5 x6 x7 x8 (ix2 e q)
      = Cert.Spec.msg (Read.val_main_v18 (F := Ideal) x2 x4) x1 x5 x6 x7 x8 (ix2 e q) := by
  have eb : Read.idx_main_v28 (ix2 e q) = ix2 e (0 : Fin 1) := funext fun a => by
    match a with | ⟨0, _⟩ => rfl | ⟨1, _⟩ => rfl
  rw [Read.val_main_v29_apply, Read.val_main_v28_apply, eb, msg_out, Ideal.mulf_def]
  rfl

/-- The reference's edge messages are the specification's, with rel the difference of the gathered positions. -/
theorem msg_ref (x1 : (⟨S1600000x128, .f32⟩ : BufTy).Contents (Elt Ideal)) (x2 : (⟨S100000x3, .f32⟩ : BufTy).Contents (Elt Ideal))
    (x4 : (⟨S2x1600000, .i32⟩ : BufTy).Contents (Elt Ideal)) (x5 : (⟨S128x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) :
    Read.val_main_v29 (F := Ideal) x1 x2 x4 x5 x6 x7 x8
      = Cert.Spec.msg (Read.val_main_v18 (F := Ideal) x2 x4) x1 x5 x6 x7 x8 := by
  funext j
  rw [eq_ix2 j]
  exact msg_at x1 x2 x4 x5 x6 x7 x8 (j 0) (j 1)

end Cert.ReferenceIdeal.RefValue
-- ==== Proof.RefCombo.lean ====
/-
  The gated velocities of the reference program are the specification's gated velocities.

  The reference computes, for node n and component q,  0 + ∑ k < 5, g (n, k) · vel (n, k, q),  a reduction over the
  channel axis started from zero, where g (n, ·) are the five outputs of the gate perceptron on row n of the node
  features H:
    pre (n, k)    = ∑ i < 128, H (n, i) · W1 (i, k) + b1 k           (a matrix product, then the bias row broadcast down)
    hidden (n, k) = pre (n, k) · (1 / (1 + exp (−pre (n, k))))       (silu, spelt with negate, exp, add and divide)
    g (n, c)      = ∑ k < 128, hidden (n, k) · W2 (k, c) + b2 c      (a matrix product, then the bias row broadcast down)
  and g is given a trailing unit axis and broadcast along the three components before the product with vel.

  Over the extended reals the quotient 1 / (1 + exp (−z)) is the logistic function by definition, the bit pattern
  0x3F800000 is the number one and the all-zero pattern is zero. Each stage below is read at one entry; the only work
  besides citing the stage's reading is to identify the stage's composed index functions with the plain coordinates,
  which holds coordinate by coordinate. The specification's five-term sum equals the sum from zero over the channels.
-/
import proofs.«142540_j18580028522964_1_alg».proof.Proof.Gen.ReferenceIdeal.Read
import proofs.«142540_j18580028522964_1_alg».proof.Proof.Spec
import Idealize.ShloMosaic.Lib.IdealHost

noncomputable section

open scoped BigOperators

namespace Cert.ReferenceIdeal.RefValue

open Cert.ReferenceIdeal Idealize.ShloMosaic Idealize.ShloMosaic.TcCoe Idealize.SL.Sem
open Idealize.ShloMosaic.ValueIdx

/-- The pre-activation of hidden unit k on node n: row n of the features against column k of the first weight matrix,
plus the bias of unit k (the bias vector is broadcast to one row and then down all rows). -/
theorem gate_pre (x0 : (⟨S100000x128, .f32⟩ : BufTy).Contents (Elt Ideal)) (x9 : (⟨S128x128, .f32⟩ : BufTy).Contents (Elt Ideal))
    (x10 : (⟨S128, .f32⟩ : BufTy).Contents (Elt Ideal)) (n : Fin 100000) (k : Fin 128) :
    Read.val_main_v45 (F := Ideal) x0 x9 x10 (ix2 n k) = (∑ i : Fin 128, x0 (ix2 n i) * x9 (ix2 i k)) + x10 (ix1 k) := by
  -- the product reads the left operand at (n, i) and the right at (i, k)
  have el : ∀ i : Fin 128, Read.lidx_main_v42 (ix2 n k) i = ix2 n i := fun i => funext fun a => by
    match a with | ⟨0, _⟩ => rfl | ⟨1, _⟩ => rfl
  have er : ∀ i : Fin 128, Read.ridx_main_v42 (ix2 n k) i = ix2 i k := fun i => funext fun a => by
    match a with | ⟨0, _⟩ => rfl | ⟨1, _⟩ => rfl
  -- the two broadcasts of the bias read it at k
  have eb : Read.idx_main_v43 (Read.idx_main_v44 (ix2 n k)) = ix1 k := funext fun a => by
    match a with | ⟨0, _⟩ => rfl
  rw [Read.val_main_v45_apply, Read.val_main_v42_apply, Read.val_main_v44_apply, Read.val_main_v43_apply, eb]
  simp only [el, er, Ideal.addf_def]

/-- Hidden unit k on node n: z · (1 / (1 + exp (−z))) at z the pre-activation, which is silu z since the quotient is the
logistic function and the constant 0x3F800000 is one. -/
theorem gate_hidden (x0 : (⟨S100000x128, .f32⟩ : BufTy).Contents (Elt Ideal)) (x9 : (⟨S128x128, .f32⟩ : BufTy).Contents (Elt Ideal))
    (x10 : (⟨S128, .f32⟩ : BufTy).Contents (Elt Ideal)) (n : Fin 100000) (k : Fin 128) :
    Read.val_main_v46 (F := Ideal) x0 x9 x10 (ix2 n k) = Cert.Spec.hidden x9 x10 (fun i => x0 (ix2 n i)) k := by
  rw [Read.val_main_v46_apply, Read.val_main_call1_v5_apply, Read.val_main_call1_v4_apply, Read.val_main_call1_cst_0_apply,
    Read.val_main_call1_v3_apply, Read.val_main_call1_v2_apply, Read.val_main_call1_cst_apply, Read.val_main_call1_v1_apply,
    Read.val_main_call1_v0_apply, gate_pre]
  simp only [Ideal.mulf_def, Ideal.hostDivf_def, Ideal.addf_def, Ideal.hostUnary_exp_def, Ideal.hostNegf_def, Ideal.negf_def,
    Ideal.ofBits_def, Ideal.ofBits_one_f32]
  -- both sides are now z * (1 / (1 + exp (-z))) with the same z, the right one folded into silu and the logistic function
  rfl

/-- Gate c of node n: the hidden row against column c of the second weight matrix, plus the bias of output c. -/
theorem gate_out (x0 : (⟨S100000x128, .f32⟩ : BufTy).Contents (Elt Ideal)) (x9 : (⟨S128x128, .f32⟩ : BufTy).Contents (Elt Ideal))
    (x10 : (⟨S128, .f32⟩ : BufTy).Contents (Elt Ideal)) (x11 : (⟨S128x5, .f32⟩ : BufTy).Contents (Elt Ideal))
    (x12 : (⟨S5, .f32⟩ : BufTy).Contents (Elt Ideal)) (n : Fin 100000) (c : Fin 5) :
    Read.val_main_v50 (F := Ideal) x0 x9 x10 x11 x12 (ix2 n c) = Cert.Spec.gate x0 x9 x10 x11 x12 n c := by
  have el : ∀ k : Fin 128, Read.lidx_main_v47 (ix2 n c) k = ix2 n k := fun k => funext fun a => by
    match a with | ⟨0, _⟩ => rfl | ⟨1, _⟩ => rfl
  have er : ∀ k : Fin 128, Read.ridx_main_v47 (ix2 n c) k = ix2 k c := fun k => funext fun a => by
    match a with | ⟨0, _⟩ => rfl | ⟨1, _⟩ => rfl
  have eb : Read.idx_main_v48 (Read.idx_main_v49 (ix2 n c)) = ix1 c := funext fun a => by
    match a with | ⟨0, _⟩ => rfl
  rw [Read.val_main_v50_apply, Read.val_main_v47_apply, Read.val_main_v49_apply, Read.val_main_v48_apply, eb]
  simp only [el, er, Ideal.addf_def, gate_hidden]
  rfl

/-- The gated velocity of node n, component q: zero plus the sum over the five channels k of gate k of node n times
vel (n, k, q); the reduction reads the product at (n, k, q), and the two broadcasts of the gates read them at (n, k). -/
theorem combo_at (x0 : (⟨S100000x128, .f32⟩ : BufTy).Contents (Elt Ideal)) (x3 : (⟨S100000x5x3, .f32⟩ : BufTy).Contents (Elt Ideal))
    (x9 : (⟨S128x128, .f32⟩ : BufTy).Contents (Elt Ideal)) (x10 : (⟨S128, .f32⟩ : BufTy).Contents (Elt Ideal))
    (x11 : (⟨S128x5, .f32⟩ : BufTy).Contents (Elt Ideal)) (x12 : (⟨S5, .f32⟩ : BufTy).Contents (Elt Ideal))
    (n : Fin 100000) (q : Fin 3) :
    Read.val_main_v54 (F := Ideal) x0 x3 x9 x10 x11 x12 (ix2 n q) = Cert.Spec.combo x0 x3 x9 x10 x11 x12 (ix2 n q) := by
  have ev : ∀ k : Fin 5, Read.idx_main_v54 (ix2 n q) k = ix3 n k q := fun k => funext fun a => by
    match a with | ⟨0, _⟩ => rfl | ⟨1, _⟩ => rfl | ⟨2, _⟩ => rfl
  have eg : ∀ k : Fin 5, Read.idx_main_v51 (Read.idx_main_v52 (ix3 n k q)) = ix2 n k := fun k => funext fun a => by
    match a with | ⟨0, _⟩ => rfl | ⟨1, _⟩ => rfl
  rw [Cert.Spec.combo_eq_sum, Read.val_main_v54_apply, Read.val_main_cst_6_apply, Ideal.ofBits_def, Ideal.ofBits_zero_f32]
  refine congrArg (fun s => (0 : EReal) + s) (Finset.sum_congr rfl fun k _ => ?_)
  rw [ev k, Read.val_main_v53_apply, Read.val_main_v52_apply, Read.val_main_v51_apply, eg k, gate_out, Ideal.mulf_def]

/-- The reference's gated velocities are the specification's. -/
theorem combo_ref (x0 : (⟨S100000x128, .f32⟩ : BufTy).Contents (Elt Ideal)) (x3 : (⟨S100000x5x3, .f32⟩ : BufTy).Contents (Elt Ideal))
    (x9 : (⟨S128x128, .f32⟩ : BufTy).Contents (Elt Ideal)) (x10 : (⟨S128, .f32⟩ : BufTy).Contents (Elt Ideal))
    (x11 : (⟨S128x5, .f32⟩ : BufTy).Contents (Elt Ideal)) (x12 : (⟨S5, .f32⟩ : BufTy).Contents (Elt Ideal)) :
    Read.val_main_v54 (F := Ideal) x0 x3 x9 x10 x11 x12 = Cert.Spec.combo x0 x3 x9 x10 x11 x12 := by
  funext j
  rw [eq_ix2 j]
  exact combo_at x0 x3 x9 x10 x11 x12 (j 0) (j 1)

end Cert.ReferenceIdeal.RefValue
-- ==== Proof.lean ====
/-
  The kernel program and the reference compute the same node update, over the extended reals.

  Both programs form rel, the difference of the positions of an edge's two endpoints, with the same host operations.
  The kernel program then runs the edge perceptron as a blocked kernel (250 blocks of 6400 edges) and the reference as
  whole-array host operations; both give the edge messages  rel (e, q) · w e  of the specification. Both sum the
  messages per destination node, divide by the node's edge count clamped below by one, and add the gated velocities,
  which the kernel program computes in a second blocked kernel (20 blocks of 5000 nodes), adding the five channels one
  after the other, and the reference by a reduction over the channel axis from zero: the same sum, addition on the
  extended reals being commutative and associative with zero neutral. The kernel's logistic function and the
  reference's  1 / (1 + exp (−z))  are one function there, and a change of float format is the identity. No law that
  needs finite operands is used, so the precondition is never opened.

  So the common result is: the shared last stretch (per-node mean of the messages, plus the gated velocities) applied
  to the specification's messages and gated velocities of the launch arguments.
-/
import proofs.«142540_j18580028522964_1_alg».proof.Defs
import proofs.«142540_j18580028522964_1_alg».proof.Proof.Gen.Kernel
import proofs.«142540_j18580028522964_1_alg».proof.Proof.Gen.Kernel.Frame
import proofs.«142540_j18580028522964_1_alg».proof.Proof.Gen.KernelIdeal
import proofs.«142540_j18580028522964_1_alg».proof.Proof.Gen.KernelIdeal.Frame
import proofs.«142540_j18580028522964_1_alg».proof.Proof.Gen.ReferenceIdeal
import proofs.«142540_j18580028522964_1_alg».proof.Proof.Gen.ReferenceIdeal.Run
import proofs.«142540_j18580028522964_1_alg».proof.Proof.Gen.ReferenceIdeal.Read
import proofs.«142540_j18580028522964_1_alg».proof.Proof.Gen.Pre_finite_inputs
import proofs.«142540_j18580028522964_1_alg».proof.Proof.KernelRun
import proofs.«142540_j18580028522964_1_alg».proof.Proof.KernelTail
import proofs.«142540_j18580028522964_1_alg».proof.Proof.EdgeArray
import proofs.«142540_j18580028522964_1_alg».proof.Proof.GateArray
import proofs.«142540_j18580028522964_1_alg».proof.Proof.RefMsg
import proofs.«142540_j18580028522964_1_alg».proof.Proof.RefCombo
import Idealize.ShloMosaic.Adequacy
import Idealize.ShloMosaic.Init

noncomputable section

namespace Cert.Proof

open Idealize.ShloMosaic Idealize.ShloMosaic.TcCoe Idealize.SL.Sem

/-- The common result on core c, as a function of the kernel program's launch memory: the shared last stretch applied
    to the specification's edge messages and gated velocities of the arguments. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v33) :=
  Cert.ReferenceIdeal.RefValue.tail (F := Ideal) (m ((c.tc : Thread Cert.KernelIdeal.nD Cert.KernelIdeal.τ).loc Cert.KernelIdeal.main_arg4))
    (Cert.Spec.msg
      (Cert.ReferenceIdeal.Read.val_main_v18 (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)))
    (Cert.Spec.combo
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)))

/-- The kernel program's result array ends at the common result: the two kernels' output arrays are the
    specification's messages and gated velocities of what each kernel finds, and each finds the launch arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W5 m ρ c (Proc.devRef .tc Cert.KernelIdeal.main_v33) = result m c := by
  rw [Cert.KernelIdeal.KValue.W5_result, Cert.KernelIdeal.EdgeValue.msg_arr, Cert.KernelIdeal.GateValue.combo_arr,
    Cert.KernelIdeal.KValue.V1_v18, Cert.KernelIdeal.KValue.V1_arg1, Cert.KernelIdeal.KValue.V1_arg5,
    Cert.KernelIdeal.KValue.V1_arg6, Cert.KernelIdeal.KValue.V1_arg7, Cert.KernelIdeal.KValue.V1_arg8,
    Cert.KernelIdeal.KValue.V3_arg0, Cert.KernelIdeal.KValue.V3_arg3, Cert.KernelIdeal.KValue.V3_arg9,
    Cert.KernelIdeal.KValue.V3_arg10, Cert.KernelIdeal.KValue.V3_arg11, Cert.KernelIdeal.KValue.V3_arg12]
  rfl

theorem frame_k [Cert.Kernel.Facts] [Cert.Pre_finite_inputs.Facts] : Cert.frame_Kernel :=
  fun m ρ _ => Cert.Kernel.Gen.frame m ρ
theorem frame_ki [Cert.KernelIdeal.Facts] [Cert.Pre_finite_inputs.Facts] : Cert.frame_KernelIdeal :=
  fun m ρ _ => Cert.KernelIdeal.Gen.frame m ρ
/-- The reference's frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the common result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨result m, ?_, ?_⟩
  · exact (θ_run Cert.KernelIdeal.defs _ _).mono (fun r h c => ⟨(h c).1.trans (kernel_result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v55_eq, Cert.ReferenceIdeal.RefValue.val_main_v55_tail,
      Cert.ReferenceIdeal.RefValue.msg_ref, Cert.ReferenceIdeal.RefValue.combo_ref,
      h0, h1, h2, h3, h4, h5, h6, h7, h8, h9, h10, h11, h12]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
